-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S4096x784 : Shape := ⟨2, ![4096, 784]⟩
abbrev S128x32x16 : Shape := ⟨3, ![128, 32, 16]⟩
abbrev S_ : Shape := ⟨0, ![]⟩

class Facts : Prop where
  bcast_S_S4096x784 : S_.BroadcastsInDim S4096x784 (![] : Fin 0 → Fin S4096x784.rank)
  reducesTo_S4096x784_S_d0_1 : S4096x784.ReducesTo [0, 1] S_
  h_S_ : 0 < S_.numel
  bcast_S_S128x32x16 : S_.BroadcastsInDim S128x32x16 (![] : Fin 0 → Fin S128x32x16.rank)
  reducesTo_S128x32x16_S_d0_1_2 : S128x32x16.ReducesTo [0, 1, 2] S_

variable [Facts]

def fn {F : FTy → Type} [FloatOps F] (main_arg0 : IVec S4096x784 32) (main_arg1 : IVec S128x32x16 32) : IVec S_ 1 :=
  let main_c : IVec S_ 32 := constantI S_ 32 0#32
  let main_v0 : IVec S4096x784 32 := broadcastInDim S4096x784 ![] bcast_S_S4096x784 main_c
  let main_v1 : IVec S4096x784 1 := cmpi .eq main_arg0 main_v0
  let main_c_0 : IVec S_ 32 := constantI S_ 32 1#32
  let main_v2 : IVec S4096x784 32 := broadcastInDim S4096x784 ![] bcast_S_S4096x784 main_c_0
  let main_v3 : IVec S4096x784 1 := cmpi .eq main_arg0 main_v2
  let main_v4 : IVec S4096x784 1 := ori main_v1 main_v3
  let main_c_1 : IVec S_ 1 := constantI S_ 1 1#1
  let main_v5 : IVec S_ 1 := (fun x v => Host.reduce IntOp.andi x v reducesTo_S4096x784_S_d0_1 h_S_) main_v4 main_c_1
  let main_c_2 : IVec S_ 32 := constantI S_ 32 0#32
  let main_v6 : IVec S128x32x16 32 := broadcastInDim S128x32x16 ![] bcast_S_S128x32x16 main_c_2
  let main_v7 : IVec S128x32x16 1 := cmpi .sge main_arg1 main_v6
  let main_c_3 : IVec S_ 32 := constantI S_ 32 1568#32
  let main_v8 : IVec S128x32x16 32 := broadcastInDim S128x32x16 ![] bcast_S_S128x32x16 main_c_3
  let main_v9 : IVec S128x32x16 1 := cmpi .sle main_arg1 main_v8
  let main_v10 : IVec S128x32x16 1 := andi main_v7 main_v9
  let main_c_4 : IVec S_ 1 := constantI S_ 1 1#1
  let main_v11 : IVec S_ 1 := (fun x v => Host.reduce IntOp.andi x v reducesTo_S128x32x16_S_d0_1_2 h_S_) main_v10 main_c_4
  let main_v12 : IVec S_ 1 := andi main_v5 main_v11
  main_v12
-- ==== Kernel.lean ====
abbrev S4096x784 : Shape := ⟨2, ![4096, 784]⟩
abbrev S128x32x16 : Shape := ⟨3, ![128, 32, 16]⟩
abbrev S_ : Shape := ⟨0, ![]⟩
abbrev S4096x16 : Shape := ⟨2, ![4096, 16]⟩
abbrev S4096 : Shape := ⟨1, ![4096]⟩
abbrev S4096x1 : Shape := ⟨2, ![4096, 1]⟩
abbrev S65536 : Shape := ⟨1, ![65536]⟩
abbrev S3211264 : Shape := ⟨1, ![3211264]⟩
abbrev S65536x1 : Shape := ⟨2, ![65536, 1]⟩
abbrev S128x32x784 : Shape := ⟨3, ![128, 32, 784]⟩
abbrev S32x784x128 : Shape := ⟨3, ![32, 784, 128]⟩
abbrev S32x896x128 : Shape := ⟨3, ![32, 896, 128]⟩
abbrev S128x32 : Shape := ⟨2, ![128, 32]⟩
abbrev S32x128 : Shape := ⟨2, ![32, 128]⟩
abbrev S4096x896 : Shape := ⟨2, ![4096, 896]⟩
abbrev S4096x128 : Shape := ⟨2, ![4096, 128]⟩
abbrev S512x896 : Shape := ⟨2, ![512, 896]⟩
abbrev S512x128 : Shape := ⟨2, ![512, 128]⟩
abbrev S1x896x128 : Shape := ⟨3, ![1, 896, 128]⟩
abbrev S896x128 : Shape := ⟨2, ![896, 128]⟩
abbrev S1x128 : Shape := ⟨2, ![1, 128]⟩
abbrev S128 : Shape := ⟨1, ![128]⟩

abbrev nBuf : Space → Nat
  | .hbm => 124
  | .vmem => 7
  | .smem => 0
  | _ => 0

abbrev bufTy : (tb : Table) → Fin (tcTables nBuf tb) → BufTy
  | .hbm, ⟨0, _⟩ => ⟨S4096x784, .i32⟩
  | .hbm, ⟨1, _⟩ => ⟨S128x32x16, .i32⟩
  | .hbm, ⟨2, _⟩ => ⟨S_, .i32⟩
  | .hbm, ⟨3, _⟩ => ⟨S128x32x16, .i32⟩
  | .hbm, ⟨4, _⟩ => ⟨S128x32x16, .i1⟩
  | .hbm, ⟨5, _⟩ => ⟨S_, .i32⟩
  | .hbm, ⟨6, _⟩ => ⟨S128x32x16, .i32⟩
  | .hbm, ⟨7, _⟩ => ⟨S128x32x16, .i1⟩
  | .hbm, ⟨8, _⟩ => ⟨S128x32x16, .i1⟩
  | .hbm, ⟨9, _⟩ => ⟨S_, .i32⟩
  | .hbm, ⟨10, _⟩ => ⟨S128x32x16, .i32⟩
  | .hbm, ⟨11, _⟩ => ⟨S128x32x16, .i1⟩
  | .hbm, ⟨12, _⟩ => ⟨S_, .i32⟩
  | .hbm, ⟨13, _⟩ => ⟨S128x32x16, .i32⟩
  | .hbm, ⟨14, _⟩ => ⟨S128x32x16, .i32⟩
  | .hbm, ⟨15, _⟩ => ⟨S_, .i32⟩
  | .hbm, ⟨16, _⟩ => ⟨S128x32x16, .i32⟩
  | .hbm, ⟨17, _⟩ => ⟨S128x32x16, .i32⟩
  | .hbm, ⟨18, _⟩ => ⟨S_, .i32⟩
  | .hbm, ⟨19, _⟩ => ⟨S128x32x16, .i32⟩
  | .hbm, ⟨20, _⟩ => ⟨S128x32x16, .i32⟩
  | .hbm, ⟨21, _⟩ => ⟨S_, .i32⟩
  | .hbm, ⟨22, _⟩ => ⟨S_, .i32⟩
  | .hbm, ⟨23, _⟩ => ⟨S128x32x16, .i32⟩
  | .hbm, ⟨24, _⟩ => ⟨S128x32x16, .i32⟩
  | .hbm, ⟨25, _⟩ => ⟨S128x32x16, .i32⟩
  | .hbm, ⟨26, _⟩ => ⟨S4096x16, .i32⟩
  | .hbm, ⟨27, _⟩ => ⟨S4096x16, .i1⟩
  | .hbm, ⟨28, _⟩ => ⟨S4096x16, .i32⟩
  | .hbm, ⟨29, _⟩ => ⟨S4096x16, .i1⟩
  | .hbm, ⟨30, _⟩ => ⟨S4096x16, .i32⟩
  | .hbm, ⟨31, _⟩ => ⟨S4096, .i32⟩
  | .hbm, ⟨32, _⟩ => ⟨S4096x1, .i32⟩
  | .hbm, ⟨33, _⟩ => ⟨S4096x16, .i32⟩
  | .hbm, ⟨34, _⟩ => ⟨S_, .i32⟩
  | .hbm, ⟨35, _⟩ => ⟨S4096x16, .i32⟩
  | .hbm, ⟨36, _⟩ => ⟨S4096x16, .i32⟩
  | .hbm, ⟨37, _⟩ => ⟨S4096x16, .i32⟩
  | .hbm, ⟨38, _⟩ => ⟨S65536, .i32⟩
  | .hbm, ⟨39, _⟩ => ⟨S_, .i32⟩
  | .hbm, ⟨40, _⟩ => ⟨S3211264, .i32⟩
  | .hbm, ⟨41, _⟩ => ⟨S65536, .i32⟩
  | .hbm, ⟨42, _⟩ => ⟨S_, .i32⟩
  | .hbm, ⟨43, _⟩ => ⟨S65536, .i32⟩
  | .hbm, ⟨44, _⟩ => ⟨S65536, .i1⟩
  | .hbm, ⟨45, _⟩ => ⟨S_, .i32⟩
  | .hbm, ⟨46, _⟩ => ⟨S65536, .i32⟩
  | .hbm, ⟨47, _⟩ => ⟨S65536, .i32⟩
  | .hbm, ⟨48, _⟩ => ⟨S65536, .i32⟩
  | .hbm, ⟨49, _⟩ => ⟨S65536x1, .i32⟩
  | .hbm, ⟨50, _⟩ => ⟨S3211264, .i32⟩
  | .hbm, ⟨51, _⟩ => ⟨S4096x784, .i32⟩
  | .hbm, ⟨52, _⟩ => ⟨S_, .i32⟩
  | .hbm, ⟨53, _⟩ => ⟨S3211264, .i32⟩
  | .hbm, ⟨54, _⟩ => ⟨S65536, .i32⟩
  | .hbm, ⟨55, _⟩ => ⟨S_, .i32⟩
  | .hbm, ⟨56, _⟩ => ⟨S65536, .i32⟩
  | .hbm, ⟨57, _⟩ => ⟨S65536, .i1⟩
  | .hbm, ⟨58, _⟩ => ⟨S_, .i32⟩
  | .hbm, ⟨59, _⟩ => ⟨S65536, .i32⟩
  | .hbm, ⟨60, _⟩ => ⟨S65536, .i32⟩
  | .hbm, ⟨61, _⟩ => ⟨S65536, .i32⟩
  | .hbm, ⟨62, _⟩ => ⟨S65536x1, .i32⟩
  | .hbm, ⟨63, _⟩ => ⟨S3211264, .i32⟩
  | .hbm, ⟨64, _⟩ => ⟨S4096x784, .i32⟩
  | .hbm, ⟨65, _⟩ => ⟨S_, .i32⟩
  | .hbm, ⟨66, _⟩ => ⟨S4096x784, .i32⟩
  | .hbm, ⟨67, _⟩ => ⟨S4096x784, .i1⟩
  | .hbm, ⟨68, _⟩ => ⟨S_, .i32⟩
  | .hbm, ⟨69, _⟩ => ⟨S4096x784, .i32⟩
  | .hbm, ⟨70, _⟩ => ⟨S4096x784, .i1⟩
  | .hbm, ⟨71, _⟩ => ⟨S_, .f32⟩
  | .hbm, ⟨72, _⟩ => ⟨S_, .f32⟩
  | .hbm, ⟨73, _⟩ => ⟨S4096x784, .f32⟩
  | .hbm, ⟨74, _⟩ => ⟨S4096x784, .f32⟩
  | .hbm, ⟨75, _⟩ => ⟨S4096x784, .f32⟩
  | .hbm, ⟨76, _⟩ => ⟨S_, .f32⟩
  | .hbm, ⟨77, _⟩ => ⟨S4096x784, .f32⟩
  | .hbm, ⟨78, _⟩ => ⟨S4096x784, .f32⟩
  | .hbm, ⟨79, _⟩ => ⟨S4096x784, .f32⟩
  | .hbm, ⟨80, _⟩ => ⟨S_, .i32⟩
  | .hbm, ⟨81, _⟩ => ⟨S4096x784, .i32⟩
  | .hbm, ⟨82, _⟩ => ⟨S4096x784, .i1⟩
  | .hbm, ⟨83, _⟩ => ⟨S_, .i32⟩
  | .hbm, ⟨84, _⟩ => ⟨S4096x784, .i32⟩
  | .hbm, ⟨85, _⟩ => ⟨S4096x784, .i1⟩
  | .hbm, ⟨86, _⟩ => ⟨S4096x784, .i1⟩
  | .hbm, ⟨87, _⟩ => ⟨S_, .i1⟩
  | .hbm, ⟨88, _⟩ => ⟨S4096, .i1⟩
  | .hbm, ⟨89, _⟩ => ⟨S_, .f32⟩
  | .hbm, ⟨90, _⟩ => ⟨S4096x784, .f32⟩
  | .hbm, ⟨91, _⟩ => ⟨S4096x784, .i1⟩
  | .hbm, ⟨92, _⟩ => ⟨S4096x784, .i32⟩
  | .hbm, ⟨93, _⟩ => ⟨S_, .i32⟩
  | .hbm, ⟨94, _⟩ => ⟨S4096, .i32⟩
  | .hbm, ⟨95, _⟩ => ⟨S4096x16, .i32⟩
  | .hbm, ⟨96, _⟩ => ⟨S_, .i32⟩
  | .hbm, ⟨97, _⟩ => ⟨S4096x16, .i32⟩
  | .hbm, ⟨98, _⟩ => ⟨S4096x16, .i1⟩
  | .hbm, ⟨99, _⟩ => ⟨S_, .i1⟩
  | .hbm, ⟨100, _⟩ => ⟨S4096, .i1⟩
  | .hbm, ⟨101, _⟩ => ⟨S4096, .i1⟩
  | .hbm, ⟨102, _⟩ => ⟨S4096, .i1⟩
  | .hbm, ⟨103, _⟩ => ⟨S4096, .i1⟩
  | .hbm, ⟨104, _⟩ => ⟨S128x32x784, .f32⟩
  | .hbm, ⟨105, _⟩ => ⟨S32x784x128, .f32⟩
  | .hbm, ⟨106, _⟩ => ⟨S_, .i32⟩
  | .hbm, ⟨107, _⟩ => ⟨S_, .f32⟩
  | .hbm, ⟨108, _⟩ => ⟨S32x896x128, .f32⟩
  | .hbm, ⟨109, _⟩ => ⟨S32x896x128, .bf16⟩
  | .hbm, ⟨110, _⟩ => ⟨S128x32, .i32⟩
  | .hbm, ⟨111, _⟩ => ⟨S128x32, .f32⟩
  | .hbm, ⟨112, _⟩ => ⟨S32x128, .f32⟩
  | .hbm, ⟨113, _⟩ => ⟨S128x32, .i1⟩
  | .hbm, ⟨114, _⟩ => ⟨S128x32, .i32⟩
  | .hbm, ⟨115, _⟩ => ⟨S32x128, .i32⟩
  | .hbm, ⟨116, _⟩ => ⟨S_, .i32⟩
  | .hbm, ⟨117, _⟩ => ⟨S_, .i32⟩
  | .hbm, ⟨118, _⟩ => ⟨S4096x896, .i32⟩
  | .hbm, ⟨119, _⟩ => ⟨S4096x128, .i32⟩
  | .hbm, ⟨120, _⟩ => ⟨S_, .i32⟩
  | .hbm, ⟨121, _⟩ => ⟨S4096x128, .i32⟩
  | .hbm, ⟨122, _⟩ => ⟨S4096x128, .i1⟩
  | .hbm, ⟨123, _⟩ => ⟨S4096x128, .i1⟩
  | .local _ .vmem, ⟨0, _⟩ => ⟨S512x896, .i32⟩
  | .local _ .vmem, ⟨1, _⟩ => ⟨S512x896, .i32⟩
  | .local _ .vmem, ⟨2, _⟩ => ⟨S32x896x128, .bf16⟩
  | .local _ .vmem, ⟨3, _⟩ => ⟨S32x128, .f32⟩
  | .local _ .vmem, ⟨4, _⟩ => ⟨S32x128, .i32⟩
  | .local _ .vmem, ⟨5, _⟩ => ⟨S512x128, .i32⟩
  | .local _ .vmem, ⟨6, _⟩ => ⟨S512x128, .i32⟩
  | _, _ => ⟨S4096x784, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_c_4 : Ref sig .tc := ⟨.hbm, 18, rfl⟩
abbrev main_v11 : Ref sig .tc := ⟨.hbm, 19, rfl⟩
abbrev main_v12 : Ref sig .tc := ⟨.hbm, 20, rfl⟩
abbrev main_c_5 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_7 : Ref sig .tc := ⟨.hbm, 39, rfl⟩
abbrev main_v27 : Ref sig .tc := ⟨.hbm, 40, rfl⟩
abbrev main_v28 : Ref sig .tc := ⟨.hbm, 41, rfl⟩
abbrev main_c_8 : Ref sig .tc := ⟨.hbm, 42, rfl⟩
abbrev main_v29 : Ref sig .tc := ⟨.hbm, 43, rfl⟩
abbrev main_v30 : Ref sig .tc := ⟨.hbm, 44, rfl⟩
abbrev main_c_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_10 : Ref sig .tc := ⟨.hbm, 52, rfl⟩
abbrev main_v37 : Ref sig .tc := ⟨.hbm, 53, rfl⟩
abbrev main_v38 : Ref sig .tc := ⟨.hbm, 54, rfl⟩
abbrev main_c_11 : Ref sig .tc := ⟨.hbm, 55, rfl⟩
abbrev main_v39 : Ref sig .tc := ⟨.hbm, 56, rfl⟩
abbrev main_v40 : Ref sig .tc := ⟨.hbm, 57, rfl⟩
abbrev main_c_12 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_13 : Ref sig .tc := ⟨.hbm, 65, rfl⟩
abbrev main_v47 : Ref sig .tc := ⟨.hbm, 66, rfl⟩
abbrev main_v48 : Ref sig .tc := ⟨.hbm, 67, rfl⟩
abbrev main_c_14 : Ref sig .tc := ⟨.hbm, 68, rfl⟩
abbrev main_v49 : Ref sig .tc := ⟨.hbm, 69, rfl⟩
abbrev main_v50 : Ref sig .tc := ⟨.hbm, 70, rfl⟩
abbrev main_cst : Ref sig .tc := ⟨.hbm, 71, rfl⟩
abbrev main_cst_15 : Ref sig .tc := ⟨.hbm, 72, rfl⟩
abbrev main_call2_v0 : Ref sig .tc := ⟨.hbm, 73, rfl⟩
abbrev main_call2_v1 : Ref sig .tc := ⟨.hbm, 74, rfl⟩
abbrev main_v51 : Ref sig .tc := ⟨.hbm, 75, rfl⟩
abbrev main_cst_16 : Ref sig .tc := ⟨.hbm, 76, rfl⟩
abbrev main_call3_v0 : Ref sig .tc := ⟨.hbm, 77, rfl⟩
abbrev main_v52 : Ref sig .tc := ⟨.hbm, 78, rfl⟩
abbrev main_v53 : Ref sig .tc := ⟨.hbm, 79, rfl⟩
abbrev main_c_17 : Ref sig .tc := ⟨.hbm, 80, rfl⟩
abbrev main_v54 : Ref sig .tc := ⟨.hbm, 81, rfl⟩
abbrev main_v55 : Ref sig .tc := ⟨.hbm, 82, rfl⟩
abbrev main_c_18 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_19 : Ref sig .tc := ⟨.hbm, 87, rfl⟩
abbrev main_v59 : Ref sig .tc := ⟨.hbm, 88, rfl⟩
abbrev main_cst_20 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_21 : Ref sig .tc := ⟨.hbm, 93, rfl⟩
abbrev main_v63 : Ref sig .tc := ⟨.hbm, 94, rfl⟩
abbrev main_v64 : Ref sig .tc := ⟨.hbm, 95, rfl⟩
abbrev main_c_22 : Ref sig .tc := ⟨.hbm, 96, rfl⟩
abbrev main_v65 : Ref sig .tc := ⟨.hbm, 97, rfl⟩
abbrev main_v66 : Ref sig .tc := ⟨.hbm, 98, rfl⟩
abbrev main_c_23 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_24 : Ref sig .tc := ⟨.hbm, 106, rfl⟩
abbrev main_call4_v0 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_25 : Ref sig .tc := ⟨.hbm, 116, rfl⟩
abbrev main_call5_v0 : Ref sig .tc := ⟨.hbm, 117, rfl⟩
abbrev main_v81 : Ref sig .tc := ⟨.hbm, 118, rfl⟩
abbrev main_v82 : Ref sig .tc := ⟨.hbm, 119, rfl⟩
abbrev main_c_26 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x896 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x896x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S128x32x16 : S_.BroadcastsInDim S128x32x16 (![] : Fin 0 → Fin S128x32x16.rank)
  shapeCasts_S128x32x16_S4096x16 : S128x32x16.ShapeCasts S4096x16
  natLt_1_32 : 1 < 32
  bcast_S4096_S4096x1_0 : S4096.BroadcastsInDim S4096x1 (![0] : Fin 1 → Fin S4096x1.rank)
  bcast_S4096x1_S4096x16_0_1 : S4096x1.BroadcastsInDim S4096x16 (![0, 1] : Fin 2 → Fin S4096x16.rank)
  bcast_S_S4096x16 : S_.BroadcastsInDim S4096x16 (![] : Fin 0 → Fin S4096x16.rank)
  shapeCasts_S4096x16_S65536 : S4096x16.ShapeCasts S65536
  bcast_S_S3211264 : S_.BroadcastsInDim S3211264 (![] : Fin 0 → Fin S3211264.rank)
  bcast_S_S65536 : S_.BroadcastsInDim S65536 (![] : Fin 0 → Fin S65536.rank)
  bcast_S65536_S65536x1_0 : S65536.BroadcastsInDim S65536x1 (![0] : Fin 1 → Fin S65536x1.rank)
  shapeCasts_S3211264_S4096x784 : S3211264.ShapeCasts S4096x784
  bcast_S_S4096x784 : S_.BroadcastsInDim S4096x784 (![] : Fin 0 → Fin S4096x784.rank)
  reducesTo_S4096x784_S4096_d1 : S4096x784.ReducesTo [1] S4096
  h_S_ : 0 < S_.numel
  reducesTo_S4096x16_S4096_d1 : S4096x16.ReducesTo [1] S4096
  shapeCasts_S4096x784_S128x32x784 : S4096x784.ShapeCasts S128x32x784
  transposes_S128x32x784_S32x784x128_1_2_0 : S128x32x784.Transposes [1, 2, 0] S32x784x128
  pads_S32x784x128_S32x896x128_000_01120_000 : S32x784x128.Pads (![0, 0, 0] : Fin 3 → Nat) ![0, 112, 0] ![0, 0, 0] S32x896x128
  bitsLt_bf16_f32 : FTy.bits .bf16 < FTy.bits .f32
  shapeCasts_S4096_S128x32 : S4096.ShapeCasts S128x32
  transposes_S128x32_S32x128_1_0 : S128x32.Transposes [1, 0] S32x128
  pads_S4096x784_S4096x896_000_01120 : S4096x784.Pads (![0, 0] : Fin 2 → Nat) ![0, 112] ![0, 0] S4096x896
  inb_S512x896_S512x896_0_0 : ∀ a, (![0, 0] : Fin 2 → Nat) a + S512x896.size a ≤ S512x896.size a
  h_S512x896 : 0 < S512x896.numel
  shapeCasts_S512x896_S512x896 : S512x896.ShapeCasts S512x896
  inb_S32x896x128_S1x896x128_0_0_0 : ∀ a, (![0, 0, 0] : Fin 3 → Nat) a + S1x896x128.size a ≤ S32x896x128.size a
  h_S1x896x128 : 0 < S1x896x128.numel
  shapeCasts_S1x896x128_S896x128 : S1x896x128.ShapeCasts S896x128
  inb_S32x128_S1x128_0_0 : ∀ a, (![0, 0] : Fin 2 → Nat) a + S1x128.size a ≤ S32x128.size a
  h_S1x128 : 0 < S1x128.numel
  shapeCasts_S1x128_S128 : S1x128.ShapeCasts S128
  shapeCasts_S128_S1x128 : S128.ShapeCasts S1x128
  broadcasts_S1x128_S512x128 : S1x128.Broadcasts S512x128
  inb_S32x896x128_S1x896x128_1_0_0 : ∀ a, (![1, 0, 0] : Fin 3 → Nat) a + S1x896x128.size a ≤ S32x896x128.size a
  inb_S32x128_S1x128_1_0 : ∀ a, (![1, 0] : Fin 2 → Nat) a + S1x128.size a ≤ S32x128.size a
  inb_S32x896x128_S1x896x128_2_0_0 : ∀ a, (![2, 0, 0] : Fin 3 → Nat) a + S1x896x128.size a ≤ S32x896x128.size a
  inb_S32x128_S1x128_2_0 : ∀ a, (![2, 0] : Fin 2 → Nat) a + S1x128.size a ≤ S32x128.size a
  inb_S32x896x128_S1x896x128_3_0_0 : ∀ a, (![3, 0, 0] : Fin 3 → Nat) a + S1x896x128.size a ≤ S32x896x128.size a
  inb_S32x128_S1x128_3_0 : ∀ a, (![3, 0] : Fin 2 → Nat) a + S1x128.size a ≤ S32x128.size a
  inb_S32x896x128_S1x896x128_4_0_0 : ∀ a, (![4, 0, 0] : Fin 3 → Nat) a + S1x896x128.size a ≤ S32x896x128.size a
  inb_S32x128_S1x128_4_0 : ∀ a, (![4, 0] : Fin 2 → Nat) a + S1x128.size a ≤ S32x128.size a
  inb_S32x896x128_S1x896x128_5_0_0 : ∀ a, (![5, 0, 0] : Fin 3 → Nat) a + S1x896x128.size a ≤ S32x896x128.size a
  inb_S32x128_S1x128_5_0 : ∀ a, (![5, 0] : Fin 2 → Nat) a + S1x128.size a ≤ S32x128.size a
  inb_S32x896x128_S1x896x128_6_0_0 : ∀ a, (![6, 0, 0] : Fin 3 → Nat) a + S1x896x128.size a ≤ S32x896x128.size a
  inb_S32x128_S1x128_6_0 : ∀ a, (![6, 0] : Fin 2 → Nat) a + S1x128.size a ≤ S32x128.size a
  inb_S32x896x128_S1x896x128_7_0_0 : ∀ a, (![7, 0, 0] : Fin 3 → Nat) a + S1x896x128.size a ≤ S32x896x128.size a
  inb_S32x128_S1x128_7_0 : ∀ a, (![7, 0] : Fin 2 → Nat) a + S1x128.size a ≤ S32x128.size a
  inb_S32x896x128_S1x896x128_8_0_0 : ∀ a, (![8, 0, 0] : Fin 3 → Nat) a + S1x896x128.size a ≤ S32x896x128.size a
  inb_S32x128_S1x128_8_0 : ∀ a, (![8, 0] : Fin 2 → Nat) a + S1x128.size a ≤ S32x128.size a
  inb_S32x896x128_S1x896x128_9_0_0 : ∀ a, (![9, 0, 0] : Fin 3 → Nat) a + S1x896x128.size a ≤ S32x896x128.size a
  inb_S32x128_S1x128_9_0 : ∀ a, (![9, 0] : Fin 2 → Nat) a + S1x128.size a ≤ S32x128.size a
  inb_S32x896x128_S1x896x128_10_0_0 : ∀ a, (![10, 0, 0] : Fin 3 → Nat) a + S1x896x128.size a ≤ S32x896x128.size a
  inb_S32x128_S1x128_10_0 : ∀ a, (![10, 0] : Fin 2 → Nat) a + S1x128.size a ≤ S32x128.size a
  inb_S32x896x128_S1x896x128_11_0_0 : ∀ a, (![11, 0, 0] : Fin 3 → Nat) a + S1x896x128.size a ≤ S32x896x128.size a
  inb_S32x128_S1x128_11_0 : ∀ a, (![11, 0] : Fin 2 → Nat) a + S1x128.size a ≤ S32x128.size a
  inb_S32x896x128_S1x896x128_12_0_0 : ∀ a, (![12, 0, 0] : Fin 3 → Nat) a + S1x896x128.size a ≤ S32x896x128.size a
  inb_S32x128_S1x128_12_0 : ∀ a, (![12, 0] : Fin 2 → Nat) a + S1x128.size a ≤ S32x128.size a
  inb_S32x896x128_S1x896x128_13_0_0 : ∀ a, (![13, 0, 0] : Fin 3 → Nat) a + S1x896x128.size a ≤ S32x896x128.size a
  inb_S32x128_S1x128_13_0 : ∀ a, (![13, 0] : Fin 2 → Nat) a + S1x128.size a ≤ S32x128.size a
  inb_S32x896x128_S1x896x128_14_0_0 : ∀ a, (![14, 0, 0] : Fin 3 → Nat) a + S1x896x128.size a ≤ S32x896x128.size a
  inb_S32x128_S1x128_14_0 : ∀ a, (![14, 0] : Fin 2 → Nat) a + S1x128.size a ≤ S32x128.size a
  inb_S32x896x128_S1x896x128_15_0_0 : ∀ a, (![15, 0, 0] : Fin 3 → Nat) a + S1x896x128.size a ≤ S32x896x128.size a
  inb_S32x128_S1x128_15_0 : ∀ a, (![15, 0] : Fin 2 → Nat) a + S1x128.size a ≤ S32x128.size a
  inb_S32x896x128_S1x896x128_16_0_0 : ∀ a, (![16, 0, 0] : Fin 3 → Nat) a + S1x896x128.size a ≤ S32x896x128.size a
  inb_S32x128_S1x128_16_0 : ∀ a, (![16, 0] : Fin 2 → Nat) a + S1x128.size a ≤ S32x128.size a
  inb_S32x896x128_S1x896x128_17_0_0 : ∀ a, (![17, 0, 0] : Fin 3 → Nat) a + S1x896x128.size a ≤ S32x896x128.size a
  inb_S32x128_S1x128_17_0 : ∀ a, (![17, 0] : Fin 2 → Nat) a + S1x128.size a ≤ S32x128.size a
  inb_S32x896x128_S1x896x128_18_0_0 : ∀ a, (![18, 0, 0] : Fin 3 → Nat) a + S1x896x128.size a ≤ S32x896x128.size a
  inb_S32x128_S1x128_18_0 : ∀ a, (![18, 0] : Fin 2 → Nat) a + S1x128.size a ≤ S32x128.size a
  inb_S32x896x128_S1x896x128_19_0_0 : ∀ a, (![19, 0, 0] : Fin 3 → Nat) a + S1x896x128.size a ≤ S32x896x128.size a
  inb_S32x128_S1x128_19_0 : ∀ a, (![19, 0] : Fin 2 → Nat) a + S1x128.size a ≤ S32x128.size a
  inb_S32x896x128_S1x896x128_20_0_0 : ∀ a, (![20, 0, 0] : Fin 3 → Nat) a + S1x896x128.size a ≤ S32x896x128.size a
  inb_S32x128_S1x128_20_0 : ∀ a, (![20, 0] : Fin 2 → Nat) a + S1x128.size a ≤ S32x128.size a
  inb_S32x896x128_S1x896x128_21_0_0 : ∀ a, (![21, 0, 0] : Fin 3 → Nat) a + S1x896x128.size a ≤ S32x896x128.size a
  inb_S32x128_S1x128_21_0 : ∀ a, (![21, 0] : Fin 2 → Nat) a + S1x128.size a ≤ S32x128.size a
  inb_S32x896x128_S1x896x128_22_0_0 : ∀ a, (![22, 0, 0] : Fin 3 → Nat) a + S1x896x128.size a ≤ S32x896x128.size a
  inb_S32x128_S1x128_22_0 : ∀ a, (![22, 0] : Fin 2 → Nat) a + S1x128.size a ≤ S32x128.size a
  inb_S32x896x128_S1x896x128_23_0_0 : ∀ a, (![23, 0, 0] : Fin 3 → Nat) a + S1x896x128.size a ≤ S32x896x128.size a
  inb_S32x128_S1x128_23_0 : ∀ a, (![23, 0] : Fin 2 → Nat) a + S1x128.size a ≤ S32x128.size a
  inb_S32x896x128_S1x896x128_24_0_0 : ∀ a, (![24, 0, 0] : Fin 3 → Nat) a + S1x896x128.size a ≤ S32x896x128.size a
  inb_S32x128_S1x128_24_0 : ∀ a, (![24, 0] : Fin 2 → Nat) a + S1x128.size a ≤ S32x128.size a
  inb_S32x896x128_S1x896x128_25_0_0 : ∀ a, (![25, 0, 0] : Fin 3 → Nat) a + S1x896x128.size a ≤ S32x896x128.size a
  inb_S32x128_S1x128_25_0 : ∀ a, (![25, 0] : Fin 2 → Nat) a + S1x128.size a ≤ S32x128.size a
  inb_S32x896x128_S1x896x128_26_0_0 : ∀ a, (![26, 0, 0] : Fin 3 → Nat) a + S1x896x128.size a ≤ S32x896x128.size a
  inb_S32x128_S1x128_26_0 : ∀ a, (![26, 0] : Fin 2 → Nat) a + S1x128.size a ≤ S32x128.size a
  inb_S32x896x128_S1x896x128_27_0_0 : ∀ a, (![27, 0, 0] : Fin 3 → Nat) a + S1x896x128.size a ≤ S32x896x128.size a
  inb_S32x128_S1x128_27_0 : ∀ a, (![27, 0] : Fin 2 → Nat) a + S1x128.size a ≤ S32x128.size a
  inb_S32x896x128_S1x896x128_28_0_0 : ∀ a, (![28, 0, 0] : Fin 3 → Nat) a + S1x896x128.size a ≤ S32x896x128.size a
  inb_S32x128_S1x128_28_0 : ∀ a, (![28, 0] : Fin 2 → Nat) a + S1x128.size a ≤ S32x128.size a
  inb_S32x896x128_S1x896x128_29_0_0 : ∀ a, (![29, 0, 0] : Fin 3 → Nat) a + S1x896x128.size a ≤ S32x896x128.size a
  inb_S32x128_S1x128_29_0 : ∀ a, (![29, 0] : Fin 2 → Nat) a + S1x128.size a ≤ S32x128.size a
  inb_S32x896x128_S1x896x128_30_0_0 : ∀ a, (![30, 0, 0] : Fin 3 → Nat) a + S1x896x128.size a ≤ S32x896x128.size a
  inb_S32x128_S1x128_30_0 : ∀ a, (![30, 0] : Fin 2 → Nat) a + S1x128.size a ≤ S32x128.size a
  inb_S32x896x128_S1x896x128_31_0_0 : ∀ a, (![31, 0, 0] : Fin 3 → Nat) a + S1x896x128.size a ≤ S32x896x128.size a
  inb_S32x128_S1x128_31_0 : ∀ a, (![31, 0] : Fin 2 → Nat) a + S1x128.size a ≤ S32x128.size a
  inb_S512x128_S512x128_0_0 : ∀ a, (![0, 0] : Fin 2 → Nat) a + S512x128.size a ≤ S512x128.size a
  h_S512x128 : 0 < S512x128.numel
  bcast_S_S4096x128 : S_.BroadcastsInDim S4096x128 (![] : Fin 0 → Fin S4096x128.rank)
  scatter_S3211264_S65536x1_S65536_n_0_0_1_wf : ScatterDims.WF S3211264 S65536x1 S65536 [] [0] [0] 1
  dot_S512x896_S896x128_S512x128_1_0_0_1_n_n_wf : DotDims.WF S512x896 S896x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x896.size a ≤ S4096x896.size a
  hwx0_0 : ∀ i : grid0.Coords, EltTy.bits .i32 = 32 ∨ (Rect.block (s := S4096x896) S512x896.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x896x128.size a ≤ S32x896x128.size a
  hwx0_1 : ∀ i : grid0.Coords, EltTy.bits .bf16 = 32 ∨ (Rect.block (s := S32x896x128) S32x896x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .i32 = 32 ∨ (Rect.block (s := S32x128) S32x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S4096x128.size a
  hwx0_4 : ∀ i : grid0.Coords, EltTy.bits .i32 = 32 ∨ (Rect.block (s := S4096x128) S512x128.size (cc0_transform_4 i) (hinb0_4 i)).WholeWords (EltTy.packing .i32)

variable [Facts₀]

def scatter_S3211264_S65536x1_S65536_n_0_0_1 : ScatterDims S3211264 S65536x1 S65536 where
  updateWindowDims := []
  insertedWindowDims := [0]
  scatterDimsToOperandDims := [0]
  indexVectorDim := 1
  wf := scatter_S3211264_S65536x1_S65536_n_0_0_1_wf
def dot_S512x896_S896x128_S512x128_1_0_0_1_n_n : DotDims S512x896 S896x128 S512x128 where
  lhsContracting := [1]
  rhsContracting := [0]
  lhsNonContracting := [0]
  rhsNonContracting := [1]
  lhsBatch := []
  rhsBatch := []
  wf := dot_S512x896_S896x128_S512x128_1_0_0_1_n_n_wf

abbrev win0_0 : Pipeline.Window sig grid0 :=
  Pipeline.Window.ofSpec (Memref.whole main_v81) S512x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v74) S32x896x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v77) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v80) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v82) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x784 : Shape := ⟨2, ![4096, 784]⟩
abbrev S128x32x16 : Shape := ⟨3, ![128, 32, 16]⟩
abbrev S_ : Shape := ⟨0, ![]⟩
abbrev S4096x1 : Shape := ⟨2, ![4096, 1]⟩
abbrev S4096x1569 : Shape := ⟨2, ![4096, 1569]⟩
abbrev S65536 : Shape := ⟨1, ![65536]⟩
abbrev S65536x1 : Shape := ⟨2, ![65536, 1]⟩
abbrev S4096x65536 : Shape := ⟨2, ![4096, 65536]⟩
abbrev S4096x128x32x16 : Shape := ⟨4, ![4096, 128, 32, 16]⟩
abbrev S128x32 : Shape := ⟨2, ![128, 32]⟩
abbrev S4096x128x32 : Shape := ⟨3, ![4096, 128, 32]⟩
abbrev S1x128x32 : Shape := ⟨3, ![1, 128, 32]⟩
abbrev S4096x128 : Shape := ⟨2, ![4096, 128]⟩

abbrev nBuf : Space → Nat
  | .hbm => 34
  | .vmem => 0
  | .smem => 0
  | _ => 0

abbrev bufTy : (tb : Table) → Fin (tcTables nBuf tb) → BufTy
  | .hbm, ⟨0, _⟩ => ⟨S4096x784, .i32⟩
  | .hbm, ⟨1, _⟩ => ⟨S128x32x16, .i32⟩
  | .hbm, ⟨2, _⟩ => ⟨S_, .i32⟩
  | .hbm, ⟨3, _⟩ => ⟨S4096x784, .i32⟩
  | .hbm, ⟨4, _⟩ => ⟨S4096x784, .i1⟩
  | .hbm, ⟨5, _⟩ => ⟨S4096x784, .i1⟩
  | .hbm, ⟨6, _⟩ => ⟨S_, .i1⟩
  | .hbm, ⟨7, _⟩ => ⟨S4096x1, .i1⟩
  | .hbm, ⟨8, _⟩ => ⟨S4096x784, .i1⟩
  | .hbm, ⟨9, _⟩ => ⟨S4096x1569, .i1⟩
  | .hbm, ⟨10, _⟩ => ⟨S65536, .i32⟩
  | .hbm, ⟨11, _⟩ => ⟨S_, .i32⟩
  | .hbm, ⟨12, _⟩ => ⟨S65536, .i32⟩
  | .hbm, ⟨13, _⟩ => ⟨S65536, .i1⟩
  | .hbm, ⟨14, _⟩ => ⟨S_, .i32⟩
  | .hbm, ⟨15, _⟩ => ⟨S65536, .i32⟩
  | .hbm, ⟨16, _⟩ => ⟨S65536, .i32⟩
  | .hbm, ⟨17, _⟩ => ⟨S65536, .i32⟩
  | .hbm, ⟨18, _⟩ => ⟨S65536x1, .i32⟩
  | .hbm, ⟨19, _⟩ => ⟨S4096x65536, .i1⟩
  | .hbm, ⟨20, _⟩ => ⟨S4096x128x32x16, .i1⟩
  | .hbm, ⟨21, _⟩ => ⟨S_, .i32⟩
  | .hbm, ⟨22, _⟩ => ⟨S128x32x16, .i32⟩
  | .hbm, ⟨23, _⟩ => ⟨S128x32x16, .i1⟩
  | .hbm, ⟨24, _⟩ => ⟨S_, .i1⟩
  | .hbm, ⟨25, _⟩ => ⟨S128x32, .i1⟩
  | .hbm, ⟨26, _⟩ => ⟨S128x32, .i1⟩
  | .hbm, ⟨27, _⟩ => ⟨S_, .i1⟩
  | .hbm, ⟨28, _⟩ => ⟨S4096x128x32, .i1⟩
  | .hbm, ⟨29, _⟩ => ⟨S1x128x32, .i1⟩
  | .hbm, ⟨30, _⟩ => ⟨S4096x128x32, .i1⟩
  | .hbm, ⟨31, _⟩ => ⟨S4096x128x32, .i1⟩
  | .hbm, ⟨32, _⟩ => ⟨S_, .i1⟩
  | .hbm, ⟨33, _⟩ => ⟨S4096x128, .i1⟩
  | _, _ => ⟨S4096x784, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_c_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_6 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S_S4096x784 : S_.BroadcastsInDim S4096x784 (![] : Fin 0 → Fin S4096x784.rank)
  bcast_S_S4096x1 : S_.BroadcastsInDim S4096x1 (![] : Fin 0 → Fin S4096x1.rank)
  concatenates_S4096x1_S4096x784_S4096x784_S4096x1569_d1 : Shape.Concatenates [S4096x1, S4096x784, S4096x784] S4096x1569 1
  shapeCasts_S128x32x16_S65536 : S128x32x16.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  shapeCasts_S4096x65536_S4096x128x32x16 : S4096x65536.ShapeCasts S4096x128x32x16
  bcast_S_S128x32x16 : S_.BroadcastsInDim S128x32x16 (![] : Fin 0 → Fin S128x32x16.rank)
  reducesTo_S128x32x16_S128x32_d2 : S128x32x16.ReducesTo [2] S128x32
  h_S_ : 0 < S_.numel
  reducesTo_S4096x128x32x16_S4096x128x32_d3 : S4096x128x32x16.ReducesTo [3] S4096x128x32
  bcast_S128x32_S1x128x32_1_2 : S128x32.BroadcastsInDim S1x128x32 (![1, 2] : Fin 2 → Fin S1x128x32.rank)
  bcast_S1x128x32_S4096x128x32_0_1_2 : S1x128x32.BroadcastsInDim S4096x128x32 (![0, 1, 2] : Fin 3 → Fin S4096x128x32.rank)
  reducesTo_S4096x128x32_S4096x128_d2 : S4096x128x32.ReducesTo [2] S4096x128
  gather_S4096x1569_S65536x1_S4096x65536_0_1_n_n_1_1_40961_wf : GatherDims.WF S4096x1569 S65536x1 S4096x65536 [0] [1] [] [1] [] 1 ![4096, 1]

variable [Facts₀]

def gather_S4096x1569_S65536x1_S4096x65536_0_1_n_n_1_1_40961 : GatherDims S4096x1569 S65536x1 S4096x65536 where
  offsetDims := [0]
  collapsedSliceDims := [1]
  operandBatchingDims := []
  startIndicesBatchingDims := []
  startIndexMap := [1]
  indexVectorDim := 1
  sliceSizes := ![4096, 1]
  wf := gather_S4096x1569_S65536x1_S4096x65536_0_1_n_n_1_1_40961_wf

class Facts : Prop extends Facts₀ where

variable [Facts]
-- ==== Proof.Spec.lean ====
/-
  The specification both programs are compared with, as plain mathematics over the two argument arrays.

  `x` is a table of 4096 rows of 784 boolean inputs (a word that is 0, or not), `W` gives for each of 128 outputs
  32 OR-terms of 16 literal numbers each. Literal number 0 is the constant True, number n in 1..784 is input
  column n-1, number n in 785..1568 is the NEGATION of input column n-785. A term holds on row b when it is not
  padding (not all sixteen numbers zero) and all sixteen literals hold; output (b, o) is the OR of its 32 terms: `G`.

  The second half restates a term the way a signed dot product sees it: column c is REQUIRED set (`Pos`) or
  REQUIRED clear (`Neg`) by some literal, `req` is +1 / -1 / 0 accordingly, `cnt` counts the constrained columns,
  `sgn` is +1 for a set input and -1 for a clear one, and a term is `valid` when it is not padding and no column is
  required both ways. (That the two descriptions agree is proved elsewhere.)
-/
import Idealize.ShloMosaic.Lib.ValueIdx
import Idealize.ShloMosaic.PureOps.Ideal

noncomputable section

namespace Cert.Spec

open Idealize.ShloMosaic Idealize.ShloMosaic.ValueIdx
open Classical

abbrev SX : Shape := ⟨2, ![4096, 784]⟩
abbrev SW : Shape := ⟨3, ![128, 32, 16]⟩
abbrev SO : Shape := ⟨2, ![4096, 128]⟩

/-- Literal number `n` on row `b`: 0 is True, 1..784 an input column, 785..1568 its negation (larger numbers do not occur). -/
def lit (x : IVec SX 32) (b : Fin 4096) (n : ℕ) : Prop :=
  if n = 0 then True
  else if h : n ≤ 784 then x (ix2 b ⟨n - 1, by omega⟩) ≠ 0#32
  else if h' : n ≤ 1568 then x (ix2 b ⟨n - 785, by omega⟩) = 0#32
  else True

/-- OR-term `t` of output `o` on row `b`: not padding, and all sixteen literals hold. -/
def term (x : IVec SX 32) (W : IVec SW 32) (b : Fin 4096) (o : Fin 128) (t : Fin 32) : Prop :=
  (∃ a : Fin 16, W (ix3 o t a) ≠ 0#32) ∧ ∀ a : Fin 16, lit x b (W (ix3 o t a)).toNat

/-- The result: output (b, o) is the OR of its 32 terms, as a one-bit word. -/
def G (x : IVec SX 32) (W : IVec SW 32) : IVec SO 1 :=
  fun i => if ∃ t : Fin 32, term x W (i 0) (i 1) t then 1#1 else 0#1

/-- Some literal of term (o, t) is input column `c` itself. -/
def Pos (W : IVec SW 32) (o : Fin 128) (t : Fin 32) (c : Fin 784) : Prop :=
  ∃ a : Fin 16, (W (ix3 o t a)).toNat = c.val + 1
/-- Some literal of term (o, t) is the negation of input column `c`. -/
def Neg (W : IVec SW 32) (o : Fin 128) (t : Fin 32) (c : Fin 784) : Prop :=
  ∃ a : Fin 16, (W (ix3 o t a)).toNat = c.val + 785
/-- The sign term (o, t) requires of column `c`: +1 set, -1 clear, 0 unconstrained (set wins when both are asked). -/
def req (W : IVec SW 32) (o : Fin 128) (t : Fin 32) (c : Fin 784) : ℝ :=
  if Pos W o t c then 1 else if Neg W o t c then -1 else 0
/-- How many columns term (o, t) constrains. -/
def cnt (W : IVec SW 32) (o : Fin 128) (t : Fin 32) : ℕ :=
  (Finset.univ.filter fun c : Fin 784 => Pos W o t c ∨ Neg W o t c).card
/-- Term (o, t) is not padding and asks no column both ways. -/
def valid (W : IVec SW 32) (o : Fin 128) (t : Fin 32) : Prop :=
  (∃ a : Fin 16, W (ix3 o t a) ≠ 0#32) ∧ ¬ ∃ c : Fin 784, Pos W o t c ∧ Neg W o t c
/-- Input (b, c) as a sign: -1 when clear, +1 when set. -/
def sgn (x : IVec SX 32) (b : Fin 4096) (c : Fin 784) : ℝ := if x (ix2 b c) = 0#32 then -1 else 1

/-- The input table widened to 896 columns by zero words. -/
def xpad (x : IVec SX 32) (b : Fin 4096) (k : Fin 896) : BitVec 32 :=
  if h : k.val < 784 then x (ix2 b ⟨k.val, h⟩) else 0#32
/-- The required signs as extended reals, widened to 896 columns by zeros. -/
def reqpad (W : IVec SW 32) (t : Fin 32) (k : Fin 896) (o : Fin 128) : EReal :=
  if h : k.val < 784 then ((req W o t ⟨k.val, h⟩ : ℝ) : EReal) else 0

end Cert.Spec

end
-- ==== Proof.PreDecode.lean ====
/-
  The precondition read back: it says that every input word is 0 or 1 and that every literal number lies in 0..1568
  (the two `jnp.all`s are reductions by `and` of element-wise tests, joined by an `and`).
-/
import proofs.«415289_j48060684042318_1_alg».proof.Proof.Gen.Pre_any_inputs
import Idealize.ShloMosaic.Lib.ReduceAll
import Idealize.ShloMosaic.Lib.ValueIdx
import Idealize.ShloMosaic.Lib.Pipeline.Value
import Idealize.ShloMosaic.Lib.StableHlo.Predicate

noncomputable section

namespace Cert.PreDecode

open Idealize.ShloMosaic Idealize.ShloMosaic.ValueIdx Cert.Pre_any_inputs Cert.Pre_any_inputs.Gen

instance : Subsingleton S_.Idx := ⟨fun a b => funext fun d => d.elim0⟩

/-- A word broadcast from a scalar constant reads that word everywhere. -/
theorem bcast_const {t : Shape} (h : S_.BroadcastsInDim t (![] : Fin 0 → Fin t.rank)) (v : BitVec 32) (i : t.Idx) :
    broadcastInDim t ![] h (constantI S_ 32 v) i = v :=
  broadcastInDim_apply _ h _ i ix0 (fun a => a.elim0)

/-- What the precondition says of the two argument arrays. -/
theorem of_pre {F : FTy → Type} [FloatOps F] (x : IVec S4096x784 32) (W : IVec S128x32x16 32)
    (h : Cert.Pre_any_inputs.fn (F := F) x W = fun _ => 1#1) :
    (∀ i, x i = 0#32 ∨ x i = 1#32) ∧ (∀ j, (W j).toNat ≤ 1568) := by
  have h0 := congrFun h ix0
  dsimp only [Cert.Pre_any_inputs.fn] at h0
  have h1 : IntOp.andi _ _ = 1#1 := h0
  obtain ⟨hx, hw⟩ := IntOp.andi_eq_one.1 h1
  constructor
  · intro i
    have e := Host.reduce_andi_all _ _ _ _ _ hx i
    have e1 : IntOp.ori (IntOp.cmpi .eq (x i) _) (IntOp.cmpi .eq (x i) _) = 1#1 := e
    rw [bcast_const, bcast_const] at e1
    rcases IntOp.ori_eq_one.1 e1 with e2 | e2
    · exact Or.inl (StableHlo.Predicate.cmpi_eq_iff.1 e2)
    · exact Or.inr (StableHlo.Predicate.cmpi_eq_iff.1 e2)
  · intro j
    have e := Host.reduce_andi_all _ _ _ _ _ hw j
    have e1 : IntOp.andi (IntOp.cmpi .sge (W j) _) (IntOp.cmpi .sle (W j) _) = 1#1 := e
    rw [bcast_const, bcast_const] at e1
    obtain ⟨e2, e3⟩ := IntOp.andi_eq_one.1 e1
    have g2 := IntOp.cmpi_sge.1 e2
    have g3 := IntOp.cmpi_sle.1 e3
    have z0 : (0#32 : BitVec 32).toInt = 0 := by decide
    have z1 : (1568#32 : BitVec 32).toInt = 1568 := by decide
    rw [z0] at g2; rw [z1] at g3
    have := BitVec.toInt_eq_toNat_cond (W j)
    have hlt := (W j).isLt
    split at this <;> omega

end Cert.PreDecode

end
-- ==== Proof.RefValue.lean ====
/-
  The reference program read as plain mathematics: its result is the specification's G.

  The reference builds, for each row b of the input, a table of 1569 literal bits [True | x ≠ 0 | ¬(x ≠ 0)], takes from
  it the 65536 columns named by the flattened term table, reshapes to (row, output, term, literal), takes the AND over
  the sixteen literals of a term, masks the padding terms (all sixteen numbers zero), and takes the OR over the 32 terms
  of an output. Read one element at a time this is exactly "some term of the output is not padding and all its literals
  hold on the row".
-/
import proofs.«415289_j48060684042318_1_alg».proof.Proof.Spec
import proofs.«415289_j48060684042318_1_alg».proof.Proof.Gen.ReferenceIdeal.Read
import Idealize.ShloMosaic.Lib.ValueIdx
import Idealize.ShloMosaic.Lib.Pipeline.Value
import Idealize.ShloMosaic.Lib.Affine
import Idealize.ShloMosaic.PureOps.Reduce
import Idealize.ShloMosaic.PureOps.ShapeOps

noncomputable section

namespace Cert.RefValue

open Idealize.ShloMosaic Idealize.ShloMosaic.ValueIdx
open Cert.ReferenceIdeal Cert.ReferenceIdeal.Gen Cert.ReferenceIdeal.Read

/-! ## Folds of one-bit words -/

/-- An AND over a finite family of bits, started at 1, is 1 exactly when every member is 1. -/
theorem fold_andi_eq_one {ι : Type} [DecidableEq ι] (f : ι → BitVec 1) (S : Finset ι) :
    S.fold IntOp.andi 1#1 f = 1#1 ↔ ∀ k ∈ S, f k = 1#1 := by
  induction S using Finset.induction_on with
  | empty => simp
  | insert a S ha ih =>
    rw [Finset.fold_insert ha, IntOp.andi_eq_one, ih]
    constructor
    · rintro ⟨h1, h2⟩ k hk
      rcases Finset.mem_insert.1 hk with rfl | hk
      · exact h1
      · exact h2 k hk
    · intro h
      exact ⟨h a (Finset.mem_insert_self a S), fun k hk => h k (Finset.mem_insert_of_mem hk)⟩

/-- An OR over a finite family of bits, started at 0, is 1 exactly when some member is 1. -/
theorem fold_ori_eq_one {ι : Type} [DecidableEq ι] (f : ι → BitVec 1) (S : Finset ι) :
    S.fold IntOp.ori 0#1 f = 1#1 ↔ ∃ k ∈ S, f k = 1#1 := by
  induction S using Finset.induction_on with
  | empty => simp
  | insert a S ha ih =>
    rw [Finset.fold_insert ha, IntOp.ori_eq_one, ih]
    constructor
    · rintro (h1 | ⟨k, hk, h2⟩)
      · exact ⟨a, Finset.mem_insert_self a S, h1⟩
      · exact ⟨k, Finset.mem_insert_of_mem hk, h2⟩
    · rintro ⟨k, hk, h2⟩
      rcases Finset.mem_insert.1 hk with rfl | hk
      · exact Or.inl h2
      · exact Or.inr ⟨k, hk, h2⟩

/-! ## Taking columns of a matrix

Taking table[:, idx] of a matrix [R, N] with a vector of n positions is a gather whose start indices are the [n, 1] column
of positions, the table's column axis collapsed and start-indexed, its row axis the result's offset axis, slices of one
whole column. The result at (r, p) is the table at (r, column), the column being position p's word read signed and
clamped into [0, N − 1]. -/

/-- The dimension numbers of table[:, idx] for a table [R, N], start indices [n, 1] and a result [R, n]. -/
abbrev colDims (R N n : Nat)
    (wf : GatherDims.WF ⟨2, ![R, N]⟩ ⟨2, ![n, 1]⟩ ⟨2, ![R, n]⟩ [0] [1] [] [1] [] 1 ![R, 1]) :
    GatherDims ⟨2, ![R, N]⟩ ⟨2, ![n, 1]⟩ ⟨2, ![R, n]⟩ where
  offsetDims := [0]
  collapsedSliceDims := [1]
  operandBatchingDims := []
  startIndicesBatchingDims := []
  startIndexMap := [1]
  indexVectorDim := 1
  sliceSizes := ![R, 1]
  wf := wf

/-- The gather read at (r, p): row r of the column that position p names, clamped into the table. -/
theorem gather_cols_apply {α : Type} {R N n w : Nat} (hN : 0 < N)
    (wf : GatherDims.WF ⟨2, ![R, N]⟩ ⟨2, ![n, 1]⟩ ⟨2, ![R, n]⟩ [0] [1] [] [1] [] 1 ![R, 1])
    (x : (⟨2, ![R, N]⟩ : Shape).Idx → α) (idx : IVec ⟨2, ![n, 1]⟩ w) (r : Fin R) (p : Fin n) :
    Host.gather (colDims R N n wf) x idx (ix2 r p)
      = x (ix2 r ⟨min (idx (ix2 p (0 : Fin 1))).toInt.toNat (N - 1), by omega⟩) := by
  unfold Host.gather
  refine congrArg x (funext fun a => Fin.ext ?_)
  match a with
  | ⟨0, _⟩ =>
    -- the row axis: not start-indexed, not batching; the result's offset coordinate
    show (colDims R N n wf).start (ix2 r p) idx 0 + (colDims R N n wf).batchCoord (ix2 r p) 0
      + (colDims R N n wf).offCoord (ix2 r p) 0 = r.val
    rw [GatherDims.batchCoord_eq_zero (colDims R N n wf) _ 0 (by show (0 : Fin 2) ∉ ([] : List (Fin 2)); decide)]
    have hs : (colDims R N n wf).start (ix2 r p) idx 0 = 0 := by
      unfold GatherDims.start
      rw [dif_neg (show (0 : Fin 2) ∉ (colDims R N n wf).startIndexMap from by
        show (0 : Fin 2) ∉ ([1] : List (Fin 2)); decide)]
    rw [hs]
    have hk : (0 : Fin 2) ∈ (colDims R N n wf).sKept :=
      (GatherDims.mem_sKept _ _).mpr ⟨by show (0 : Fin 2) ∉ ([1] : List (Fin 2)); decide,
        by show (0 : Fin 2) ∉ ([] : List (Fin 2)); decide⟩
    unfold GatherDims.offCoord
    rw [dif_pos hk]
    simp only [Nat.zero_add]
    rfl
  | ⟨1, _⟩ =>
    -- the column axis: the clamped start index, nothing else
    show (colDims R N n wf).start (ix2 r p) idx 1 + (colDims R N n wf).batchCoord (ix2 r p) 1
      + (colDims R N n wf).offCoord (ix2 r p) 1 = min (idx (ix2 p (0 : Fin 1))).toInt.toNat (N - 1)
    rw [GatherDims.batchCoord_eq_zero (colDims R N n wf) _ 1 (by show (1 : Fin 2) ∉ ([] : List (Fin 2)); decide),
      GatherDims.offCoord_eq_zero (colDims R N n wf) _ 1
        (fun h => ((GatherDims.mem_sKept _ _).mp h).1 (List.mem_singleton.mpr rfl))]
    simp only [Nat.add_zero]
    unfold GatherDims.start
    rw [dif_pos (show (1 : Fin 2) ∈ (colDims R N n wf).startIndexMap from List.mem_singleton.mpr rfl)]
    have hsi : (colDims R N n wf).siIdx (ix2 r p)
        ⟨List.idxOf (1 : Fin 2) (colDims R N n wf).startIndexMap, List.idxOf_lt_length_iff.2 (List.mem_singleton.mpr rfl)⟩
        = ix2 p (0 : Fin 1) := funext fun b => Fin.ext (by
      match b with
      | ⟨0, _⟩ => rfl
      | ⟨1, _⟩ => rfl)
    rw [hsi]
    rfl

/-! ## The literal table [True | x ≠ 0 | ¬(x ≠ 0)] -/

/-- The input table compared with zero reads, at an index, 1 exactly when the input word is not zero. -/
theorem v2_eq_one (x : IVec Cert.Spec.SX 32) (i : S4096x784.Idx) :
    val_main_v2 (F := Ideal) x i = 1#1 ↔ x i ≠ 0#32 := by
  rw [val_main_v2_apply, val_main_v1_apply, val_main_v0_apply, val_main_c_apply]
  exact IntOp.cmpi_ne

/-- The three pieces of the literal table, in order: the constant column, the input compared with zero, its negation. -/
abbrev pieces (x : IVec Cert.Spec.SX 32) : List ((s : Shape) × (s.Idx → BitVec 1)) :=
  [⟨S4096x1, val_main_v3 (F := Ideal)⟩, ⟨S4096x784, val_main_v2 (F := Ideal) x⟩, ⟨S4096x784, val_main_v4 (F := Ideal) x⟩]

/-- The literal table at (b, n) holds 1 exactly when literal number n holds on row b. -/
theorem v5_eq_one (x : IVec Cert.Spec.SX 32) (b : Fin 4096) (n : Fin 1569) :
    val_main_v5 (F := Ideal) x (ix2 b n) = 1#1 ↔ Cert.Spec.lit x b n.val := by
  have hn := n.isLt
  unfold val_main_v5 Cert.Spec.lit
  by_cases h0 : n.val = 0
  · -- column 0: the constant True
    rw [if_pos h0]
    refine (iff_of_eq (congrArg (fun z : BitVec 1 => z = 1#1)
      (concatenate_apply_piece (1 : Fin S4096x1569.rank) (pieces x) concatenates_S4096x1_S4096x784_S4096x784_S4096x1569_d1
        (ix2 b n) 0 (by show (0 : Nat) < 3; omega) S4096x1 (val_main_v3 (F := Ideal)) rfl rfl 0 rfl (ix2 b (0 : Fin 1)) ?_ ?_))).trans ?_
    · intro c hc
      match c with
      | ⟨0, _⟩ => rfl
      | ⟨1, _⟩ => exact absurd rfl hc
    · show 0 + 0 = n.val
      omega
    · rw [val_main_v3_apply, val_main_c_0_apply]
      exact iff_true_intro rfl
  · rw [if_neg h0]
    by_cases h1 : n.val ≤ 784
    · -- columns 1..784: the input column n − 1 compared with zero
      rw [dif_pos h1]
      refine (iff_of_eq (congrArg (fun z : BitVec 1 => z = 1#1)
        (concatenate_apply_piece (1 : Fin S4096x1569.rank) (pieces x) concatenates_S4096x1_S4096x784_S4096x784_S4096x1569_d1
          (ix2 b n) 1 (by show (1 : Nat) < 3; omega) S4096x784 (val_main_v2 (F := Ideal) x) rfl rfl 1 rfl
          (ix2 b (⟨n.val - 1, by omega⟩ : Fin 784)) ?_ ?_))).trans ?_
      · intro c hc
        match c with
        | ⟨0, _⟩ => rfl
        | ⟨1, _⟩ => exact absurd rfl hc
      · show 1 + (n.val - 1) = n.val
        omega
      · exact v2_eq_one x _
    · -- columns 785..1568: the negation of input column n − 785
      have h2 : n.val ≤ 1568 := by omega
      rw [dif_neg h1, dif_pos h2]
      refine (iff_of_eq (congrArg (fun z : BitVec 1 => z = 1#1)
        (concatenate_apply_piece (1 : Fin S4096x1569.rank) (pieces x) concatenates_S4096x1_S4096x784_S4096x784_S4096x1569_d1
          (ix2 b n) 2 (by show (2 : Nat) < 3; omega) S4096x784 (val_main_v4 (F := Ideal) x) rfl rfl 785 rfl
          (ix2 b (⟨n.val - 785, by omega⟩ : Fin 784)) ?_ ?_))).trans ?_
      · intro c hc
        match c with
        | ⟨0, _⟩ => rfl
        | ⟨1, _⟩ => exact absurd rfl hc
      · show 785 + (n.val - 785) = n.val
        omega
      · rw [val_main_v4_apply, IntOp.not_eq_one, v2_eq_one]
        exact not_not

/-! ## The positions taken: the flattened term table, each word in 0..1568 -/

/-- A word at most 1568 is not negative when read signed: its signed value is its unsigned one. -/
theorem toInt_of_le (w : BitVec 32) (h : w.toNat ≤ 1568) : w.toInt = (w.toNat : Int) := by
  rw [BitVec.toInt_eq_toNat_cond, if_pos (by omega)]

/-- The position word at flat place (o·32 + t)·16 + a is the term table's word (o, t, a): it is not negative, so the
    wrap-around branch is not taken. -/
theorem v12_eq (W : IVec Cert.Spec.SW 32) (hw : ∀ j, (W j).toNat ≤ 1568) (o : Fin 128) (t : Fin 32) (a : Fin 16) :
    val_main_v12 (F := Ideal) W
        (ix2 (⟨(o.val * 32 + t.val) * 16 + a.val, by have := o.isLt; have := t.isLt; have := a.isLt; omega⟩ : Fin 65536) (0 : Fin 1))
      = W (ix3 o t a) := by
  have ho := o.isLt; have ht := t.isLt; have ha := a.isLt
  rw [val_main_v12_apply, val_main_v11_apply, val_main_v8_apply, val_main_v7_apply, val_main_c_1_apply, val_main_v6_apply]
  have hidx : idx_main_v6 (idx_main_v12
      (ix2 (⟨(o.val * 32 + t.val) * 16 + a.val, by omega⟩ : Fin 65536) (0 : Fin 1))) = ix3 o t a :=
    funext fun c => Fin.ext (by
      match c with
      | ⟨0, _⟩ => show ((o.val * 32 + t.val) * 16 + a.val) / 512 = o.val; omega
      | ⟨1, _⟩ => show ((o.val * 32 + t.val) * 16 + a.val) / 16 % 32 = t.val; omega
      | ⟨2, _⟩ => show ((o.val * 32 + t.val) * 16 + a.val) % 16 = a.val; omega)
  rw [hidx]
  have hc : IntOp.cmpi .slt (W (ix3 o t a)) 0#32 = 0#1 := eq_zero_of_ne_one fun h => by
    have h' := IntOp.cmpi_slt.1 h
    rw [toInt_of_le _ (hw (ix3 o t a)), BitVec.toInt_zero] at h'
    omega
  rw [hc, select_zero]

/-- The taken table at (b, flat place of (o, t, a)) is the literal table at (b, word (o, t, a)): the word is in range, so
    the clamp does nothing. -/
theorem v13_eq_one (x : IVec Cert.Spec.SX 32) (W : IVec Cert.Spec.SW 32) (hw : ∀ j, (W j).toNat ≤ 1568)
    (b : Fin 4096) (o : Fin 128) (t : Fin 32) (a : Fin 16) :
    val_main_v13 (F := Ideal) x W
        (ix2 b (⟨(o.val * 32 + t.val) * 16 + a.val, by have := o.isLt; have := t.isLt; have := a.isLt; omega⟩ : Fin 65536)) = 1#1
      ↔ Cert.Spec.lit x b (W (ix3 o t a)).toNat := by
  have hwle := hw (ix3 o t a)
  have hcol : min (val_main_v12 (F := Ideal) W
      (ix2 (⟨(o.val * 32 + t.val) * 16 + a.val, by have := o.isLt; have := t.isLt; have := a.isLt; omega⟩ : Fin 65536)
        (0 : Fin 1))).toInt.toNat (1569 - 1) = (W (ix3 o t a)).toNat := by
    rw [v12_eq W hw, toInt_of_le _ hwle, Int.toNat_natCast]
    omega
  have e : val_main_v13 (F := Ideal) x W
      (ix2 b (⟨(o.val * 32 + t.val) * 16 + a.val, by have := o.isLt; have := t.isLt; have := a.isLt; omega⟩ : Fin 65536))
      = val_main_v5 (F := Ideal) x (ix2 b (⟨(W (ix3 o t a)).toNat, by omega⟩ : Fin 1569)) :=
    (gather_cols_apply (R := 4096) (N := 1569) (n := 65536) (by omega)
      gather_S4096x1569_S65536x1_S4096x65536_0_1_n_n_1_1_40961_wf (val_main_v5 (F := Ideal) x) (val_main_v12 (F := Ideal) W) b _).trans
      (congrArg (fun c : Fin 1569 => val_main_v5 (F := Ideal) x (ix2 b c)) (Fin.ext hcol))
  rw [e]
  exact v5_eq_one x b _

/-- The same after the reshape to (row, output, term, literal). -/
theorem v14_eq_one (x : IVec Cert.Spec.SX 32) (W : IVec Cert.Spec.SW 32) (hw : ∀ j, (W j).toNat ≤ 1568)
    (b : Fin 4096) (o : Fin 128) (t : Fin 32) (a : Fin 16) :
    val_main_v14 (F := Ideal) x W (ix4 b o t a) = 1#1 ↔ Cert.Spec.lit x b (W (ix3 o t a)).toNat := by
  have hb := b.isLt; have ho := o.isLt; have ht := t.isLt; have ha := a.isLt
  rw [val_main_v14_apply]
  have hidx : idx_main_v14 (ix4 b o t a)
      = ix2 b (⟨(o.val * 32 + t.val) * 16 + a.val, by omega⟩ : Fin 65536) :=
    funext fun c => Fin.ext (by
      match c with
      | ⟨0, _⟩ => show (((b.val * 128 + o.val) * 32 + t.val) * 16 + a.val) / 65536 = b.val; omega
      | ⟨1, _⟩ => show (((b.val * 128 + o.val) * 32 + t.val) * 16 + a.val) % 65536 = (o.val * 32 + t.val) * 16 + a.val; omega)
  rw [hidx]
  exact v13_eq_one x W hw b o t a

/-! ## All over a term's literals, any over an output's terms -/

theorem red16 : S4096x128x32x16.Reduces [3] S4096x128x32 := by decide
theorem redW : S128x32x16.Reduces [2] S128x32 := by decide
theorem red32 : S4096x128x32.Reduces [2] S4096x128 := by decide

/-- (b, o, t) with literal place a put back on the reduced axis. -/
theorem lift16 (b : Fin 4096) (o : Fin 128) (t : Fin 32) (a : Fin 16) : red16.lift (ix3 b o t) a = ix4 b o t a :=
  funext fun c => Fin.ext (by
    match c with
    | ⟨0, _⟩ => rfl
    | ⟨1, _⟩ => rfl
    | ⟨2, _⟩ => rfl
    | ⟨3, _⟩ => rfl)

theorem liftW (o : Fin 128) (t : Fin 32) (a : Fin 16) : redW.lift (ix2 o t) a = ix3 o t a :=
  funext fun c => Fin.ext (by
    match c with
    | ⟨0, _⟩ => rfl
    | ⟨1, _⟩ => rfl
    | ⟨2, _⟩ => rfl)

theorem lift32 (b : Fin 4096) (o : Fin 128) (t : Fin 32) : red32.lift (ix2 b o) t = ix3 b o t :=
  funext fun c => Fin.ext (by
    match c with
    | ⟨0, _⟩ => rfl
    | ⟨1, _⟩ => rfl
    | ⟨2, _⟩ => rfl)

/-- All sixteen literals of term (o, t) hold on row b. -/
theorem v19_eq_one (x : IVec Cert.Spec.SX 32) (W : IVec Cert.Spec.SW 32) (hw : ∀ j, (W j).toNat ≤ 1568)
    (b : Fin 4096) (o : Fin 128) (t : Fin 32) :
    val_main_v19 (F := Ideal) x W (ix3 b o t) = 1#1 ↔ ∀ a : Fin 16, Cert.Spec.lit x b (W (ix3 o t a)).toNat := by
  unfold val_main_v19
  rw [Host.reduce_eq_fold_single IntOp.andi _ _ reducesTo_S4096x128x32x16_S4096x128x32_d3 red16 h_S_ (ix3 b o t),
    val_main_c_5_apply, fold_andi_eq_one]
  have key : ∀ a : Fin 16, val_main_v14 (F := Ideal) x W (red16.lift (ix3 b o t) a) = 1#1
      ↔ Cert.Spec.lit x b (W (ix3 o t a)).toNat := fun a => by
    rw [lift16]
    exact v14_eq_one x W hw b o t a
  exact ⟨fun h a => (key a).1 (h a (Finset.mem_univ _)), fun h a _ => (key a).2 (h a)⟩

/-- Term (o, t) is padding: all sixteen numbers are zero. -/
theorem v17_eq_one (W : IVec Cert.Spec.SW 32) (o : Fin 128) (t : Fin 32) :
    val_main_v17 (F := Ideal) W (ix2 o t) = 1#1 ↔ ∀ a : Fin 16, W (ix3 o t a) = 0#32 := by
  unfold val_main_v17
  rw [Host.reduce_eq_fold_single IntOp.andi _ _ reducesTo_S128x32x16_S128x32_d2 redW h_S_ (ix2 o t),
    val_main_c_4_apply, fold_andi_eq_one]
  have key : ∀ a : Fin 16, val_main_v16 (F := Ideal) W (redW.lift (ix2 o t) a) = 1#1 ↔ W (ix3 o t a) = 0#32 := fun a => by
    rw [liftW, val_main_v16_apply, val_main_v15_apply, val_main_c_3_apply]
    exact IntOp.cmpi_eq
  exact ⟨fun h a => (key a).1 (h a (Finset.mem_univ _)), fun h a _ => (key a).2 (h a)⟩

/-- The masked term bit is the specification's term. -/
theorem v22_eq_one (x : IVec Cert.Spec.SX 32) (W : IVec Cert.Spec.SW 32) (hw : ∀ j, (W j).toNat ≤ 1568)
    (b : Fin 4096) (o : Fin 128) (t : Fin 32) :
    val_main_v22 (F := Ideal) x W (ix3 b o t) = 1#1 ↔ Cert.Spec.term x W b o t := by
  have hidx : idx_main_v20 (idx_main_v21 (ix3 b o t)) = ix2 o t :=
    funext fun c => by
      match c with
      | ⟨0, _⟩ => rfl
      | ⟨1, _⟩ => rfl
  rw [val_main_v22_apply, IntOp.andi_eq_one, v19_eq_one x W hw, val_main_v21_apply, val_main_v20_apply,
    val_main_v18_apply, IntOp.not_eq_one, hidx, v17_eq_one, not_forall]
  exact And.comm

/-- Output (b, o) of the reference is 1 exactly when some term holds. -/
theorem v23_eq_one (x : IVec Cert.Spec.SX 32) (W : IVec Cert.Spec.SW 32) (hw : ∀ j, (W j).toNat ≤ 1568)
    (b : Fin 4096) (o : Fin 128) :
    val_main_v23 (F := Ideal) x W (ix2 b o) = 1#1 ↔ ∃ t : Fin 32, Cert.Spec.term x W b o t := by
  unfold val_main_v23
  rw [Host.reduce_eq_fold_single IntOp.ori _ _ reducesTo_S4096x128x32_S4096x128_d2 red32 h_S_ (ix2 b o),
    val_main_c_6_apply, fold_ori_eq_one]
  have key : ∀ t : Fin 32, val_main_v22 (F := Ideal) x W (red32.lift (ix2 b o) t) = 1#1 ↔ Cert.Spec.term x W b o t := fun t => by
    rw [lift32]
    exact v22_eq_one x W hw b o t
  exact ⟨fun ⟨t, _, h⟩ => ⟨t, (key t).1 h⟩, fun ⟨t, h⟩ => ⟨t, Finset.mem_univ _, (key t).2 h⟩⟩

/-! ## The reference is the specification -/

theorem ref_eq (x : IVec Cert.Spec.SX 32) (W : IVec Cert.Spec.SW 32) (hw : ∀ j, (W j).toNat ≤ 1568) :
    Cert.ReferenceIdeal.Read.val_main_v23 (F := Ideal) x W = Cert.Spec.G x W := by
  funext i
  obtain ⟨b, o, rfl⟩ : ∃ (b : Fin 4096) (o : Fin 128), i = ix2 b o := ⟨i 0, i 1, eq_ix2 i⟩
  by_cases h : ∃ t : Fin 32, Cert.Spec.term x W b o t
  · exact ((v23_eq_one x W hw b o).2 h).trans (if_pos h).symm
  · exact (eq_zero_of_ne_one fun e => h ((v23_eq_one x W hw b o).1 e)).trans (if_neg h).symm

end Cert.RefValue

end
-- ==== Proof.KStage.lean ====
/-
  The host computation that runs before the kernel, one named stage per meaningful array, each a function of the
  weight table `W` (or of the input table `X`): which literals are plain / negated inputs, their column, the flat
  scatter position (term · 784 + column), the two scatter-added count tables, the table of required signs, the
  "asked both ways" flag, the number of constrained columns, the padding flag, the validity flag, and the four
  arrays the kernel's windows read (signs transposed and padded to 896 columns, counts as floats, validity as words,
  inputs padded to 896 columns).
-/
import proofs.«415289_j48060684042318_1_alg».proof.Proof.Gen.KernelIdeal
import Idealize.ShloMosaic.PureOps

noncomputable section

namespace Cert.KernelIdeal.Stage

open Cert.KernelIdeal Cert.KernelIdeal.Gen Idealize.ShloMosaic

/-- A word broadcast over the weight table's shape. -/
abbrev bW (v : BitVec 32) : IVec S128x32x16 32 := broadcastInDim S128x32x16 ![] bcast_S_S128x32x16 (constantI S_ 32 v)
/-- A word broadcast over the [4096 × 784] count tables' shape. -/
abbrev bT (v : BitVec 32) : IVec S4096x784 32 := broadcastInDim S4096x784 ![] bcast_S_S4096x784 (constantI S_ 32 v)
/-- A word broadcast over the flat list of 65536 literals. -/
abbrev bL (v : BitVec 32) : IVec S65536 32 := broadcastInDim S65536 ![] bcast_S_S65536 (constantI S_ 32 v)

/-- The row of term `t` of output `o` in the [4096 × …] tables: o · 32 + t. -/
def ot (o : Fin 128) (t : Fin 32) : Fin 4096 := ⟨o.val * 32 + t.val, by have := o.isLt; have := t.isLt; omega⟩

/-- The literal is a plain input: 1 ≤ w ≤ 784. -/
def isPos (W : IVec S128x32x16 32) : IVec S128x32x16 1 := andi (cmpi .sge W (bW 1#32)) (cmpi .sle W (bW 784#32))
/-- The literal is a negated input: w > 784. -/
def isNeg (W : IVec S128x32x16 32) : IVec S128x32x16 1 := cmpi .sgt W (bW 784#32)
/-- The literal's input column: w − 1, or w − 1 − 784, or 0 for the constant. -/
def colW (W : IVec S128x32x16 32) : IVec S128x32x16 32 :=
  select (isPos W) (subi W (bW 1#32))
    (select (isNeg W) (subi (subi W (bW 1#32)) (bW 784#32)) (broadcastInDim S128x32x16 ![] bcast_S_S128x32x16 (id (constantI S_ 32 0#32))))
/-- The plain-input flags as words, flattened to the 65536 literals. -/
def posf (W : IVec S128x32x16 32) : IVec S65536 32 :=
  shapeCast _ (extui 32 (shapeCast _ (isPos W) shapeCasts_S128x32x16_S4096x16) natLt_1_32) shapeCasts_S4096x16_S65536
/-- The negated-input flags as words, flattened. -/
def negf (W : IVec S128x32x16 32) : IVec S65536 32 :=
  shapeCast _ (extui 32 (shapeCast _ (isNeg W) shapeCasts_S128x32x16_S4096x16) natLt_1_32) shapeCasts_S4096x16_S65536
/-- Term number · 784 + column, flattened. -/
def flat0 (W : IVec S128x32x16 32) : IVec S65536 32 :=
  shapeCast _ (addi (muli (broadcastInDim S4096x16 ![0, 1] bcast_S4096x1_S4096x16_0_1 (broadcastInDim S4096x1 ![0] bcast_S4096_S4096x1_0 (iotaInDim S4096 32 0)))
      (broadcastInDim S4096x16 ![] bcast_S_S4096x16 (constantI S_ 32 784#32)))
    (shapeCast _ (colW W) shapeCasts_S128x32x16_S4096x16)) shapeCasts_S4096x16_S65536
/-- The scatter's start indices: the flat position, a negative one wrapped by the table's length, as a column. -/
def flat (W : IVec S128x32x16 32) : IVec S65536x1 32 :=
  broadcastInDim S65536x1 ![0] bcast_S65536_S65536x1_0
    (select (cmpi .slt (flat0 W) (bL 0#32)) (addi (flat0 W) (bL 3211264#32)) (flat0 W))
/-- How many literals of each term are the plain input of each column. -/
def posCnt (W : IVec S128x32x16 32) : IVec S4096x784 32 :=
  shapeCast _ (Host.scatter scatter_S3211264_S65536x1_S65536_n_0_0_1 IntOp.addi
    (broadcastInDim S3211264 ![] bcast_S_S3211264 (constantI S_ 32 0#32)) (flat W) (posf W)) shapeCasts_S3211264_S4096x784
/-- How many literals of each term are the negated input of each column. -/
def negCnt (W : IVec S128x32x16 32) : IVec S4096x784 32 :=
  shapeCast _ (Host.scatter scatter_S3211264_S65536x1_S65536_n_0_0_1 IntOp.addi
    (broadcastInDim S3211264 ![] bcast_S_S3211264 (constantI S_ 32 0#32)) (flat W) (negf W)) shapeCasts_S3211264_S4096x784
/-- Some literal of the term asks the column both ways, for some column. -/
def contra (W : IVec S128x32x16 32) : IVec S4096 1 :=
  Host.reduce IntOp.ori (andi (cmpi .sgt (posCnt W) (bT 0#32)) (cmpi .sgt (negCnt W) (bT 0#32))) (constantI S_ 1 0#1) reducesTo_S4096x784_S4096_d1 h_S_
/-- All sixteen literal numbers of the term are zero. -/
def allZero (W : IVec S128x32x16 32) : IVec S4096 1 :=
  Host.reduce IntOp.andi (cmpi .eq (shapeCast _ W shapeCasts_S128x32x16_S4096x16) (broadcastInDim S4096x16 ![] bcast_S_S4096x16 (constantI S_ 32 0#32)))
    (constantI S_ 1 1#1) reducesTo_S4096x16_S4096_d1 h_S_
/-- The term is not padding and asks no column both ways. -/
def vld (W : IVec S128x32x16 32) : IVec S4096 1 := andi (noti (allZero W)) (noti (contra W))
/-- The validity flags as words, laid out [term, output]. -/
def A80 (W : IVec S128x32x16 32) : IVec S32x128 32 :=
  transpose S32x128 [1, 0] (extui 32 (shapeCast _ (vld W) shapeCasts_S4096_S128x32) natLt_1_32) transposes_S128x32_S32x128_1_0
/-- The inputs padded with zero words to 896 columns. -/
def A81 (X : IVec S4096x784 32) : IVec S4096x896 32 :=
  pad S4096x896 ![0, 0] ![0, 112] ![0, 0] X (id (constantI S_ 32 0#32)) pads_S4096x784_S4096x896_000_01120 h_S_

variable {F : FTy → Type} [FloatOps F]

/-- The required sign of each (term, column): +1 if asked set, else −1 if asked clear, else 0. -/
def reqA (W : IVec S128x32x16 32) : FVec F S4096x784 .f32 :=
  id (select (cmpi .sgt (posCnt W) (bT 0#32)) (broadcastInDim S4096x784 ![] bcast_S_S4096x784 (constant S_ .f32 0x3F800000#32))
    (select (cmpi .sgt (negCnt W) (bT 0#32)) (broadcastInDim S4096x784 ![] bcast_S_S4096x784 (constant S_ .f32 0xBF800000#32))
      (broadcastInDim S4096x784 ![] bcast_S_S4096x784 (constant S_ .f32 0x00000000#32))))
/-- The number of constrained columns of each term. -/
def rcount (W : IVec S128x32x16 32) : IVec S4096 32 :=
  Host.reduce IntOp.addi (extui 32 (cmpf .une (reqA (F := F) W) (broadcastInDim S4096x784 ![] bcast_S_S4096x784 (constant S_ .f32 0x00000000#32))) natLt_1_32)
    (constantI S_ 32 0#32) reducesTo_S4096x784_S4096_d1 h_S_
/-- The required signs laid out [term, column, output], padded with zeros to 896 columns. -/
def A74 (W : IVec S128x32x16 32) : FVec F S32x896x128 .bf16 :=
  truncf .bf16 (pad S32x896x128 ![0, 0, 0] ![0, 112, 0] ![0, 0, 0]
    (transpose S32x784x128 [1, 2, 0] (shapeCast _ (reqA (F := F) W) shapeCasts_S4096x784_S128x32x784) transposes_S128x32x784_S32x784x128_1_2_0)
    (sitofp .f32 (constantI S_ 32 0#32)) pads_S32x784x128_S32x896x128_000_01120_000 h_S_) bitsLt_bf16_f32
/-- The counts of constrained columns as floats, laid out [term, output]. -/
def A77 (W : IVec S128x32x16 32) : FVec F S32x128 .f32 :=
  transpose S32x128 [1, 0] (sitofp .f32 (shapeCast _ (rcount (F := F) W) shapeCasts_S4096_S128x32)) transposes_S128x32_S32x128_1_0

end Cert.KernelIdeal.Stage

end
-- ==== Proof.KHost.lean ====
/-
  What the kernel's four input arrays hold when the region is entered: the host stages of the weight table and of
  the input table (each array is the composed term of the host operations before the region, which is the stage).
-/
import proofs.«415289_j48060684042318_1_alg».proof.Proof.Gen.KernelIdeal.Frame
import proofs.«415289_j48060684042318_1_alg».proof.Proof.KStage
import Idealize.ShloMosaic.Lib.StableHlo.Run

set_option maxRecDepth 16384

noncomputable section

namespace Cert.KernelIdeal.KHost

open Idealize.ShloMosaic Idealize.ShloMosaic.TcCoe Idealize.ShloMosaic.Tactic Idealize.ShloMosaic.StableHlo
open Idealize.SL.Sem
open Cert.KernelIdeal Cert.KernelIdeal.Gen

variable {F : FTy → Type} [FloatOps F]
variable (m : (ℓ : Loc nD τ sig) → Buf (Elt F) ℓ)

set_option maxHeartbeats 8000000 in
/-- The padded input table. -/
theorem V_main_v81 (c : Dev nD) :
    (V m c main_v81 : IVec S4096x896 32) = Stage.A81 (m ((c : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10,
    List.flatten_cons, List.flatten_nil, List.append_nil, List.cons_append, List.nil_append]
  after_results_simp <;> (try simp only [TRef.ofBuf, TRef.toBuf, cast_eq]) <;> rfl

set_option maxHeartbeats 8000000 in
/-- The validity flags, laid out [term, output]. -/
theorem V_main_v80 (c : Dev nD) :
    (V m c main_v80 : IVec S32x128 32) = Stage.A80 (m ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10,
    List.flatten_cons, List.flatten_nil, List.append_nil, List.cons_append, List.nil_append]
  after_results_simp <;> (try simp only [TRef.ofBuf, TRef.toBuf, cast_eq]) <;> rfl

set_option maxHeartbeats 8000000 in
/-- The counts of constrained columns as floats, laid out [term, output]. -/
theorem V_main_v77 (c : Dev nD) :
    (V m c main_v77 : FVec F S32x128 .f32) = Stage.A77 (F := F) (m ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10,
    List.flatten_cons, List.flatten_nil, List.append_nil, List.cons_append, List.nil_append]
  after_results_simp <;> (try simp only [TRef.ofBuf, TRef.toBuf, cast_eq]) <;> rfl

set_option maxHeartbeats 8000000 in
/-- The required signs, laid out [term, column, output] and padded. -/
theorem V_main_v74 (c : Dev nD) :
    (V m c main_v74 : FVec F S32x896x128 .bf16) = Stage.A74 (F := F) (m ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10,
    List.flatten_cons, List.flatten_nil, List.append_nil, List.cons_append, List.nil_append]
  after_results_simp <;> (try simp only [TRef.ofBuf, TRef.toBuf, cast_eq]) <;> rfl

end Cert.KernelIdeal.KHost

end
-- ==== Proof.KValue.lean ====
/-
  From the blocks the kernel writes to the whole result array, and on through the host lines after the region.

  The grid has 8 points; point g reads rows 512·g … 512·g+511 of the padded input table and the three weight-derived
  arrays whole, and writes rows 512·g … 512·g+511 of the [4096 × 128] word array. So entry (b, o) of that array is the
  body's result at local row b mod 512 of the point b / 512 (`K`), the eight blocks tile the array, and the program's
  result is "that word is not zero".
-/
import proofs.«415289_j48060684042318_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.KValue

open Idealize.ShloMosaic Idealize.ShloMosaic.TcCoe Idealize.ShloMosaic.Tactic Idealize.ShloMosaic.ValueIdx Idealize.ShloMosaic.StableHlo
open Idealize.SL Idealize.SL.Sem
open Idealize.ShloMosaic.Pipeline (Dat Cfg Window)
open Cert.KernelIdeal Cert.KernelIdeal.Gen

variable {F : FTy → Type} [FloatOps F]

/-- Rows 512·g … 512·g+511 of the padded input table. -/
def rows (X : IVec S4096x896 32) (g : Fin 8) : Vec F S512x896 .i32 :=
  fun y => X (ix2 ⟨g.val * 512 + (y 0).val, by have := idx2_lt0 y; have := g.isLt; omega⟩ (y 1))

/-- The result array before the final test: entry (b, o) is the body's word at local row b mod 512 of point b / 512. -/
def K (X : IVec S4096x896 32) (R : Vec F S32x896x128 .bf16) (C : Vec F S32x128 .f32) (M : Vec F S32x128 .i32) : Vec F S4096x128 .i32 :=
  fun i => out0_4 (rows (F := F) X ⟨(i 0).val / 512, by have := idx2_lt0 i; omega⟩) R C M
    (ix2 ⟨(i 0).val % 512, Nat.mod_lt _ (by decide)⟩ (i 1))

theorem K_congr (X : IVec S4096x896 32) (R : Vec F S32x896x128 .bf16) (C : Vec F S32x128 .f32) (M : Vec F S32x128 .i32)
    (g g' : Fin 8) (y y' : S512x128.Idx) (hg : g = g') (hy : y = y') :
    out0_4 (rows (F := F) X g) R C M y = out0_4 (rows (F := F) X g') R C M y' := by subst hg hy; rfl

variable (m : (ℓ : Loc nD τ sig) → Buf (Elt F) ℓ) (ρ : Dev nD → PrngReg)

/-- The printed index maps, decided over the grid: windows 0 and 4 move down one block of rows per point, the others stay. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 8 := lt_of_lt_of_eq t.isLt N_0

/-- Point `t`'s block of the padded input table is its rows 512·t … 512·t+511. -/
theorem blk0_read (X : IVec S4096x896 32) (t : Fin cfg0.N) :
    (((cfg0.win 0).blk t).view.read (Elt F) X : Vec F S512x896 .i32) = rows (F := F) X ⟨t.val, t_lt t⟩ := by
  obtain ⟨e00, e01, e10, e11, e12, e20, e21, e30, e31, e40, e41⟩ := idx_facts t
  funext y
  show X (((cfg0.win 0).blk t).view.emb y) = X _
  refine congrArg X (funext fun a => Fin.ext ?_)
  match a with
  | ⟨0, _⟩ => show win0_0.index t (0 : Fin 2) * 512 + 1 * (y 0).val = t.val * 512 + (y 0).val; omega
  | ⟨1, _⟩ => show win0_0.index t (1 : Fin 2) * 896 + 1 * (y 1).val = (y 1).val; omega

/-- Every point's block of the sign table is the whole table. -/
theorem blk1_read (X : Vec F S32x896x128 .bf16) (t : Fin cfg0.N) :
    (((cfg0.win 1).blk t).view.read (Elt F) X : Vec F S32x896x128 .bf16) = X := by
  obtain ⟨e00, e01, e10, e11, e12, e20, e21, e30, e31, e40, e41⟩ := idx_facts t
  funext y
  show X (((cfg0.win 1).blk t).view.emb y) = X y
  refine congrArg X (funext fun a => Fin.ext ?_)
  match a with
  | ⟨0, _⟩ => show win0_1.index t (0 : Fin 3) * 32 + 1 * (y 0).val = (y 0).val; omega
  | ⟨1, _⟩ => show win0_1.index t (1 : Fin 3) * 896 + 1 * (y 1).val = (y 1).val; omega
  | ⟨2, _⟩ => show win0_1.index t (2 : Fin 3) * 128 + 1 * (y 2).val = (y 2).val; omega

/-- Every point's block of the count table is the whole table. -/
theorem blk2_read (X : Vec F S32x128 .f32) (t : Fin cfg0.N) :
    (((cfg0.win 2).blk t).view.read (Elt F) X : Vec F S32x128 .f32) = X := by
  obtain ⟨e00, e01, e10, e11, e12, e20, e21, e30, e31, e40, e41⟩ := idx_facts t
  funext y
  show X (((cfg0.win 2).blk t).view.emb y) = X y
  refine congrArg X (funext fun a => Fin.ext ?_)
  match a with
  | ⟨0, _⟩ => show win0_2.index t (0 : Fin 2) * 32 + 1 * (y 0).val = (y 0).val; omega
  | ⟨1, _⟩ => show win0_2.index t (1 : Fin 2) * 128 + 1 * (y 1).val = (y 1).val; omega

/-- Every point's block of the validity table is the whole table. -/
theorem blk3_read (X : Vec F S32x128 .i32) (t : Fin cfg0.N) :
    (((cfg0.win 3).blk t).view.read (Elt F) X : Vec F S32x128 .i32) = X := by
  obtain ⟨e00, e01, e10, e11, e12, e20, e21, e30, e31, e40, e41⟩ := idx_facts t
  funext y
  show X (((cfg0.win 3).blk t).view.emb y) = X y
  refine congrArg X (funext fun a => Fin.ext ?_)
  match a with
  | ⟨0, _⟩ => show win0_3.index t (0 : Fin 2) * 32 + 1 * (y 0).val = (y 0).val; omega
  | ⟨1, _⟩ => show win0_3.index t (1 : Fin 2) * 128 + 1 * (y 1).val = (y 1).val; omega

/-- Block `t` of `K` is the body's result on rows 512·t … of the input table. -/
theorem blk4_read_K (X : IVec S4096x896 32) (R : Vec F S32x896x128 .bf16) (C : Vec F S32x128 .f32) (M : Vec F S32x128 .i32) (t : Fin cfg0.N) :
    (out0_4 (rows (F := F) X ⟨t.val, t_lt t⟩) R C M : Vec F S512x128 .i32) = ((cfg0.win 4).blk t).view.read (Elt F) (K (F := F) X R C M) := by
  obtain ⟨e00, e01, e10, e11, e12, e20, e21, e30, e31, e40, e41⟩ := idx_facts t
  funext j
  show out0_4 (rows (F := F) X ⟨t.val, t_lt t⟩) R C M j = K (F := F) X R C M (((cfg0.win 4).blk t).view.emb j)
  unfold K
  have hj0 : (j 0).val < 512 := idx2_lt0 j
  refine K_congr _ _ _ _ _ _ _ _ (Fin.ext ?_) (funext fun a => Fin.ext ?_)
  · show t.val = (win0_4.index t (0 : Fin 2) * 512 + 1 * (j 0).val) / 512
    omega
  · match a with
    | ⟨0, _⟩ => show (j 0).val = (win0_4.index t (0 : Fin 2) * 512 + 1 * (j 0).val) % 512; omega
    | ⟨1, _⟩ => show (j 1).val = win0_4.index t (1 : Fin 2) * 128 + 1 * (j 1).val; omega

/-- WHAT POINT `t` WRITES BACK is block `t` of `K` of the four arrays as the region finds them. -/
theorem flushed_eq (c : Dev nD) (t : Fin cfg0.N) :
    (dats m 0 c).flushed 4 t = ((cfg0.win 4).blk t).view.read (Elt F)
      (K (F := F) (V m c main_v81) (V m c main_v74) (V m c main_v77) (V m c main_v80)) := by
  show (cfg0.win 4).cut (grid0.coords t) ((dats m 0 c).after 4 t) = _
  rw [after0_4]
  have h0 : (iblk m c 0 t : Vec F S512x896 .i32) = rows (F := F) (V m c main_v81) ⟨t.val, t_lt t⟩ := by
    unfold iblk; exact blk0_read _ t
  have h1 : (iblk m c 1 t : Vec F S32x896x128 .bf16) = V m c main_v74 := by
    unfold iblk; exact blk1_read _ t
  have h2 : (iblk m c 2 t : Vec F S32x128 .f32) = V m c main_v77 := by
    unfold iblk; exact blk2_read _ t
  have h3 : (iblk m c 3 t : Vec F S32x128 .i32) = V m c main_v80 := by
    unfold iblk; exact blk3_read _ t
  rw [h0, h1, h2, h3]
  exact blk4_read_K _ _ _ _ t

/-- An index of the array is in point `t`'s block iff each coordinate is in the block's range on its axis. -/
theorem mem_blk (t : Fin cfg0.N) (i : S4096x128.Idx) :
    i ∈ ((cfg0.win 4).blk t).view.set ↔ ∀ a : Fin 2, win0_4.index t a * S512x128.size a ≤ (i a).val ∧ (i a).val < win0_4.index t a * S512x128.size a + S512x128.size a := by
  show i ∈ ((View.whole main_v82).slice (win0_4.rect t)).set ↔ _
  rw [View.set_slice_whole, Rect.mem_set_unit]
  exact Iff.rfl

/-- Every entry of the array lies in the block of the point its row belongs to. -/
theorem cover (i : S4096x128.Idx) : ∃ t : Fin cfg0.N, (cfg0.win 4).flush t = true ∧ i ∈ ((cfg0.win 4).blk t).view.set := by
  have hi0 : (i 0).val < 4096 := idx2_lt0 i
  have hi1 : (i 1).val < 128 := idx2_lt1 i
  let t : Fin cfg0.N := ⟨(i 0).val / 512, lt_of_lt_of_eq (by omega : (i 0).val / 512 < 8) N_0.symm⟩
  obtain ⟨e00, e01, e10, e11, e12, e20, e21, e30, e31, e40, e41⟩ := idx_facts t
  have ht : t.val = (i 0).val / 512 := rfl
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 128 ≤ (i 1).val ∧ (i 1).val < win0_4.index t (1 : Fin 2) * 128 + 128; omega

/-- THE ARRAY after the region. -/
theorem final (c : Dev nD) : (dats m 0 c).arrAt 4 cfg0.N = K (F := F) (V m c main_v81) (V m c main_v74) (V m c main_v77) (V m c main_v80) :=
  (dats m 0 c).arrAt_eq_of_cover 4 _ (fun t _ => flushed_eq m c t) cover

/-- The word zero broadcast over the result's shape. -/
abbrev zeroOut : IVec S4096x128 32 := broadcastInDim S4096x128 ![] bcast_S_S4096x128 (constantI S_ 32 0#32)

/-- The program's result, after the host lines that follow the region: "the word is not zero". -/
theorem tail_v85 (c : Dev nD) :
    Pipeline.afterTail₀ cfgs (dats m) 0 (V0 m) [hostOps1] c main_v85
      = (cmpi .ne (K (F := F) (V m c main_v81) (V m c main_v74) (V m c main_v77) (V m c main_v80)) zeroOut : IVec S4096x128 1) := by
  unfold Pipeline.afterTail₀
  show StableHlo.after hostOps1 _ (Proc.devRef .tc main_v85) = _
  after_results
  have e : Pipeline.withArrays (cfgs 0).spec c (V0 m c) (fun w => (dats m 0 c).arrAt w (cfgs 0).N) (Proc.devRef .tc main_v82)
      = K (F := F) (V m c main_v81) (V m c main_v74) (V m c main_v77) (V m c main_v80) :=
    (Pipeline.withArrays_arr spec0 launch0.win.arr_inj c _ _ 4).trans (final m c)
  exact congrArg (fun z : IVec S4096x128 32 => (cmpi .ne z zeroOut : IVec S4096x128 1)) e

/-- The frame run re-posted: the result array at "K is not zero", the arguments unchanged. -/
theorem run : θ_run defs (onTc (τ := τ) (main (F := F))) ⟨m, fun _ => 0, ρ⟩ fun r => ∀ c : Dev nD,
      r.2.mem ((c.tc : Thread nD τ).loc main_v85)
        = (cmpi .ne (K (F := F) (V m c main_v81) (V m c main_v74) (V m c main_v77) (V m c main_v80)) zeroOut : IVec S4096x128 1)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v85 (Pipeline.mem_restRefs_of main_v85 (by decide) (by decide))).trans (tail_v85 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KValue

end
-- ==== Proof.Core.lean ====
/-
  A term of sixteen literals as a signed dot product.

  Each product sign × requirement is at most 1 on a constrained column and is 0 on an unconstrained one, so the
  sum over the 784 columns reaches the number of constrained columns exactly when every constrained column carries
  the required sign. A literal number n in 1..784 constrains column n-1 to be set, n in 785..1568 constrains column
  n-785 to be clear; when no column is asked both ways the requirement is -1 exactly on the columns asked clear.

  The second statement reads the same dot product over 896 columns in the extended reals: for a 0/1 word twice the
  value minus one is the sign, the 112 extra columns carry requirement 0 and so contribute nothing, and the
  extended-real sum is the coercion of the real sum.
-/
import proofs.«415289_j48060684042318_1_alg».proof.Proof.Spec
import Mathlib.Algebra.BigOperators.Fin
import Mathlib.Algebra.Order.BigOperators.Group.Finset
import Mathlib.Data.EReal.Basic
import Mathlib.Data.EReal.Operations

noncomputable section

namespace Cert.Core

open Cert.Spec Idealize.ShloMosaic Idealize.ShloMosaic.ValueIdx
open Classical

/-- The sign of an input is +1 exactly when the word is not zero. -/
theorem sgn_eq_one_iff (x : IVec SX 32) (b : Fin 4096) (c : Fin 784) :
    sgn x b c = 1 ↔ x (ix2 b c) ≠ 0#32 := by
  unfold sgn
  split_ifs with h
  · constructor
    · intro h1; norm_num at h1
    · intro h1; exact absurd h h1
  · simp [h]

/-- The sign of an input is -1 exactly when the word is zero. -/
theorem sgn_eq_neg_one_iff (x : IVec SX 32) (b : Fin 4096) (c : Fin 784) :
    sgn x b c = -1 ↔ x (ix2 b c) = 0#32 := by
  unfold sgn
  split_ifs with h
  · simp [h]
  · constructor
    · intro h1; norm_num at h1
    · intro h1; exact absurd h1 h

theorem sgn_cases (x : IVec SX 32) (b : Fin 4096) (c : Fin 784) :
    sgn x b c = 1 ∨ sgn x b c = -1 := by
  unfold sgn
  split_ifs <;> simp

/-- All sixteen literals hold iff every column asked set is set and every column asked clear is clear. -/
theorem lits_iff (x : IVec SX 32) (W : IVec SW 32) (b : Fin 4096) (o : Fin 128) (t : Fin 32) :
    (∀ a : Fin 16, lit x b (W (ix3 o t a)).toNat) ↔
      ((∀ c : Fin 784, Pos W o t c → sgn x b c = 1) ∧ (∀ c : Fin 784, Neg W o t c → sgn x b c = -1)) := by
  constructor
  · intro h
    constructor
    · rintro c ⟨a, ha⟩
      have := h a
      rw [ha] at this
      unfold lit at this
      rw [if_neg (by omega), dif_pos (by omega)] at this
      rw [sgn_eq_one_iff]
      have e : (⟨c.val + 1 - 1, by omega⟩ : Fin 784) = c := Fin.ext (by simp)
      rwa [e] at this
    · rintro c ⟨a, ha⟩
      have := h a
      rw [ha] at this
      unfold lit at this
      rw [if_neg (by omega), dif_neg (by omega), dif_pos (by omega)] at this
      rw [sgn_eq_neg_one_iff]
      have e : (⟨c.val + 785 - 785, by omega⟩ : Fin 784) = c := Fin.ext (by simp)
      rwa [e] at this
  · rintro ⟨hp, hn⟩ a
    unfold lit
    split_ifs with h0 h1 h2
    · rw [← sgn_eq_one_iff]
      exact hp _ ⟨a, by simp; omega⟩
    · rw [← sgn_eq_neg_one_iff]
      exact hn _ ⟨a, by simp; omega⟩

/-- The number of constrained columns as a sum of indicators. -/
theorem cnt_eq_sum (W : IVec SW 32) (o : Fin 128) (t : Fin 32) :
    (cnt W o t : ℝ) = ∑ c : Fin 784, (if Pos W o t c ∨ Neg W o t c then (1 : ℝ) else 0) := by
  unfold cnt
  rw [Finset.sum_boole]

/-- On every column the product of sign and requirement is at most the indicator of being constrained. -/
theorem prod_le_ind (x : IVec SX 32) (W : IVec SW 32) (b : Fin 4096) (o : Fin 128) (t : Fin 32) (c : Fin 784) :
    sgn x b c * req W o t c ≤ (if Pos W o t c ∨ Neg W o t c then (1 : ℝ) else 0) := by
  unfold req
  rcases sgn_cases x b c with h | h <;> rw [h] <;> split_ifs <;> simp_all

/-- Equality on one column, given that no column is asked both ways. -/
theorem prod_eq_ind_iff (x : IVec SX 32) (W : IVec SW 32) (b : Fin 4096) (o : Fin 128) (t : Fin 32) (c : Fin 784)
    (hc : ¬ (Pos W o t c ∧ Neg W o t c)) :
    sgn x b c * req W o t c = (if Pos W o t c ∨ Neg W o t c then (1 : ℝ) else 0) ↔
      ((Pos W o t c → sgn x b c = 1) ∧ (Neg W o t c → sgn x b c = -1)) := by
  unfold req
  by_cases hp : Pos W o t c
  · have hn : ¬ Neg W o t c := fun hn => hc ⟨hp, hn⟩
    simp [hp, hn]
  · by_cases hn : Neg W o t c
    · simp [hp, hn]
      constructor
      · intro h; linarith
      · intro h; rw [h]; norm_num
    · simp [hp, hn]

/-- The sum of products reaches the count iff it does so on every column. -/
theorem sum_eq_cnt_iff (x : IVec SX 32) (W : IVec SW 32) (b : Fin 4096) (o : Fin 128) (t : Fin 32) :
    ∑ c : Fin 784, sgn x b c * req W o t c = (cnt W o t : ℝ) ↔
      ∀ c : Fin 784, sgn x b c * req W o t c = (if Pos W o t c ∨ Neg W o t c then (1 : ℝ) else 0) := by
  rw [cnt_eq_sum]
  constructor
  · intro h c
    have h0 : ∑ c : Fin 784, ((if Pos W o t c ∨ Neg W o t c then (1 : ℝ) else 0) - sgn x b c * req W o t c) = 0 := by
      rw [Finset.sum_sub_distrib, h, sub_self]
    have h1 := (Finset.sum_eq_zero_iff_of_nonneg
      (fun c _ => sub_nonneg.mpr (prod_le_ind x W b o t c))).mp h0 c (Finset.mem_univ c)
    linarith
  · intro h
    exact Finset.sum_congr rfl (fun c _ => h c)

theorem term_iff (x : IVec SX 32) (W : IVec SW 32) (hw : ∀ j, (W j).toNat ≤ 1568) (b : Fin 4096) (o : Fin 128) (t : Fin 32) :
    term x W b o t ↔ (valid W o t ∧ ∑ c : Fin 784, sgn x b c * req W o t c = (cnt W o t : ℝ)) := by
  unfold term valid
  rw [lits_iff, sum_eq_cnt_iff, and_assoc]
  refine and_congr_right (fun _ => ?_)
  constructor
  · rintro ⟨hp, hn⟩
    have hc : ¬ ∃ c : Fin 784, Pos W o t c ∧ Neg W o t c := by
      rintro ⟨c, h1, h2⟩
      have := hp c h1
      rw [hn c h2] at this
      norm_num at this
    refine ⟨hc, fun c => ?_⟩
    exact (prod_eq_ind_iff x W b o t c (fun h => hc ⟨c, h⟩)).mpr ⟨hp c, hn c⟩
  · rintro ⟨hc, h⟩
    have key := fun c => (prod_eq_ind_iff x W b o t c (fun h' => hc ⟨c, h'⟩)).mp (h c)
    exact ⟨fun c => (key c).1, fun c => (key c).2⟩

/-- The coercion from the reals to the extended reals commutes with finite sums. -/
theorem coe_sum {ι : Type*} (s : Finset ι) (g : ι → ℝ) :
    ((∑ c ∈ s, g c : ℝ) : EReal) = ∑ c ∈ s, ((g c : ℝ) : EReal) := by
  induction s using Finset.induction_on with
  | empty => simp
  | insert a s ha ih => rw [Finset.sum_insert ha, Finset.sum_insert ha, EReal.coe_add, ih]

/-- A sum over m + d columns of a family that is a coerced real on the first m columns and zero on the rest. -/
theorem sum_pad (m d : ℕ) (g : Fin m → ℝ) :
    ∑ k : Fin (m + d), (if h : k.val < m then ((g ⟨k.val, h⟩ : ℝ) : EReal) else 0)
      = ((∑ c : Fin m, g c : ℝ) : EReal) := by
  rw [Fin.sum_univ_add, coe_sum]
  have h1 : ∀ i : Fin m, (if h : (Fin.castAdd d i).val < m then
      ((g ⟨(Fin.castAdd d i).val, h⟩ : ℝ) : EReal) else 0) = ((g i : ℝ) : EReal) := by
    intro i
    simp
  have h2 : ∀ i : Fin d, (if h : (Fin.natAdd m i).val < m then
      ((g ⟨(Fin.natAdd m i).val, h⟩ : ℝ) : EReal) else 0) = 0 := by
    intro i
    simp
  simp only [h1, h2, Finset.sum_const_zero, add_zero]

/-- For a 0/1 word, twice its value minus one is the sign. -/
theorem toInt_sgn (x : IVec SX 32) (hx : ∀ i, x i = 0#32 ∨ x i = 1#32) (b : Fin 4096) (c : Fin 784) :
    (((x (ix2 b c)).toInt : ℝ) * 2 - 1) = sgn x b c := by
  unfold sgn
  rcases hx (ix2 b c) with h | h
  · rw [h]; simp
  · rw [h]
    have : (1#32 : BitVec 32) ≠ 0#32 := by decide
    rw [if_neg this]
    have : (1#32 : BitVec 32).toInt = 1 := by decide
    rw [this]; norm_num

/-- One summand of the padded extended-real dot product. -/
theorem summand_eq (x : IVec SX 32) (W : IVec SW 32) (hx : ∀ i, x i = 0#32 ∨ x i = 1#32)
    (b : Fin 4096) (o : Fin 128) (t : Fin 32) (k : Fin 896) :
    ((((xpad x b k).toInt : ℝ) : EReal) * 2 - 1) * reqpad W t k o
      = (if h : k.val < 784 then (((sgn x b ⟨k.val, h⟩ * req W o t ⟨k.val, h⟩ : ℝ)) : EReal) else 0) := by
  unfold xpad reqpad
  by_cases h : k.val < 784
  · rw [dif_pos h, dif_pos h, dif_pos h, ← toInt_sgn x hx b ⟨k.val, h⟩]
    push_cast
    rfl
  · rw [dif_neg h, dif_neg h, dif_neg h, mul_zero]

/-- The padded extended-real dot product is the coercion of the real signed dot product. -/
theorem ereal_sum_eq (x : IVec SX 32) (W : IVec SW 32) (hx : ∀ i, x i = 0#32 ∨ x i = 1#32)
    (b : Fin 4096) (o : Fin 128) (t : Fin 32) :
    (∑ k : Fin 896, ((((xpad x b k).toInt : ℝ) : EReal) * 2 - 1) * reqpad W t k o)
      = ((∑ c : Fin 784, sgn x b c * req W o t c : ℝ) : EReal) := by
  rw [Finset.sum_congr rfl (fun k _ => summand_eq x W hx b o t k)]
  exact sum_pad 784 112 (fun c => sgn x b c * req W o t c)

theorem kernel_cond_iff (x : IVec SX 32) (W : IVec SW 32) (hx : ∀ i, x i = 0#32 ∨ x i = 1#32) (hw : ∀ j, (W j).toNat ≤ 1568)
    (b : Fin 4096) (o : Fin 128) :
    (∃ t : Fin 32, (∑ k : Fin 896, ((((xpad x b k).toInt : ℝ) : EReal) * 2 - 1) * reqpad W t k o) = ((cnt W o t : ℝ) : EReal)
        ∧ (if valid W o t then 1#32 else 0#32) = 1#32)
      ↔ ∃ t : Fin 32, term x W b o t := by
  refine exists_congr (fun t => ?_)
  rw [term_iff x W hw b o t, ereal_sum_eq x W hx b o t, EReal.coe_eq_coe_iff, and_comm]
  refine and_congr_left (fun _ => ?_)
  by_cases hv : valid W o t
  · simp [hv]
  · simp [hv]

end Cert.Core

end
-- ==== Proof.Body.lean ====
/-
  The kernel body's output block, read at one element.

  The body turns its [512,896] block of input words into signs, xs = 2·x − 1 (the change of float format is the identity on
  the extended reals), and then, for each of the 32 OR-terms t in order, multiplies xs by slice t of the table of required
  signs (a [896,128] block product into a zero accumulator), compares the product with row t of the thresholds, widens the
  comparison bit to a word, multiplies it by row t of the masks and takes the signed maximum with the running result, which
  starts at zero; the last running result is stored over the whole output block.

  Here: one such update on whole blocks (`step`) and the 32-fold chain of updates (`chainV`), which the output block is by
  unfolding (`out_eq_chain`); one update read at an element (p, q) (`step_apply`: the block product there is the sum over the
  896 contracted columns, the broadcast rows read their entry q); the chain at (p, q) as a chain of words (`chainV_apply`,
  over `cell`: the word of OR-term t); and the arithmetic of words that are 0 or 1 — the signed maximum from zero of such
  words is not zero exactly when one of them is 1 (`chainS_spec`), and an OR-term's word is 1 exactly when its dot product
  meets its threshold and its mask word is 1 (`cell_01`). Together: `out0_4_ne_zero_iff`.
-/
import proofs.«415289_j48060684042318_1_alg».proof.Proof.Gen.KernelIdeal.Frame
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-- One OR-term's update of the running result, on whole blocks: the row block `xs` times one [896,128] table slice into a zero
    accumulator, compared for equality with one broadcast row of thresholds, the bit widened and multiplied by one broadcast
    row of masks, and the signed maximum with the running result. -/
def step (xs : FVec Ideal S512x896 .bf16) (acc : IVec S512x128 32) (blk : Vec Ideal S1x896x128 .bf16)
    (cv : Vec Ideal S1x128 .f32) (mv : Vec Ideal S1x128 .i32) : IVec S512x128 32 :=
  maxsi acc (muli (extui 32 (cmpf .oeq
      (matmul (F := Ideal) (φ₁ := .bf16) (φ₂ := .bf16) dot_S512x896_S896x128_S512x128_1_0_0_1_n_n none xs
        (shapeCast S896x128 blk shapeCasts_S1x896x128_S896x128 : FVec Ideal S896x128 .bf16)
        (constant S512x128 .f32 0x00000000#32) : FVec Ideal S512x128 .f32)
      (broadcastTo S512x128 (shapeCast S1x128 (shapeCast S128 cv shapeCasts_S1x128_S128 : FVec Ideal S128 .f32) shapeCasts_S128_S1x128 : FVec Ideal S1x128 .f32)
        broadcasts_S1x128_S512x128 : FVec Ideal S512x128 .f32)) natLt_1_32)
    (broadcastTo S512x128 (shapeCast S1x128 (shapeCast S128 mv shapeCasts_S1x128_S128 : IVec S128 32) shapeCasts_S128_S1x128 : IVec S1x128 32)
      broadcasts_S1x128_S512x128))

theorem inb_blk (t : Nat) (h : t < 32) :
    ∀ a, (![t, 0, 0] : Fin 3 → Nat) a + S1x896x128.size a ≤ S32x896x128.size a :=
  fun a => match a with
    | ⟨0, _⟩ => by show t + 1 ≤ 32; omega
    | ⟨1, _⟩ => by show 0 + 896 ≤ 896; omega
    | ⟨2, _⟩ => by show 0 + 128 ≤ 128; omega

theorem inb_row (t : Nat) (h : t < 32) :
    ∀ a, (![t, 0] : Fin 2 → Nat) a + S1x128.size a ≤ S32x128.size a :=
  fun a => match a with
    | ⟨0, _⟩ => by show t + 1 ≤ 32; omega
    | ⟨1, _⟩ => by show 0 + 128 ≤ 128; omega

def chainV (x0 : Vec Ideal S512x896 .i32) (x1 : Vec Ideal S32x896x128 .bf16) (x2 : Vec Ideal S32x128 .f32)
    (x3 : Vec Ideal S32x128 .i32) : (n : Nat) → n ≤ 32 → IVec S512x128 32
  | 0, _ => broadcast S512x128 0#32
  | n + 1, h => step (k0_pay2 (View.ld x0 r0_0)) (chainV x0 x1 x2 x3 n (by omega))
      (View.ld x1 (Rect.unit ![n, 0, 0] S1x896x128.size (inb_blk n (by omega))))
      (View.ld x2 (Rect.unit ![n, 0] S1x128.size (inb_row n (by omega))))
      (View.ld x3 (Rect.unit ![n, 0] S1x128.size (inb_row n (by omega))))

theorem off0 : (![0, 0] : Fin 2 → ℕ) = fun _ => 0 := funext fun a => by fin_cases a <;> rfl

/-- The output block after the body is the 32-fold chain: its one whole-block store leaves its payload, and the payloads, cut
    as they are, are the 32 updates in order from the zero block. -/
theorem out_eq_chain (x0 : Vec Ideal S512x896 .i32) (x1 : Vec Ideal S32x896x128 .bf16) (x2 : Vec Ideal S32x128 .f32)
    (x3 : Vec Ideal S32x128 .i32) : out0_4 (F := Ideal) x0 x1 x2 x3 = chainV x0 x1 x2 x3 32 le_rfl := by
  unfold out0_4
  rw [View.canon_unit_zero off0]
  rfl

/-! ## The contraction's index bookkeeping -/

/-- The product's dimension numbers: rows times the contracted axis, the contracted axis times columns. -/
abbrev D : DotDims S512x896 S896x128 S512x128 := dot_S512x896_S896x128_S512x128_1_0_0_1_n_n

theorem lhs_0 (j : S512x128.Idx) (k : D.contr.Idx) : (D.lhsIdx j k 0 : ℕ) = j 0 := by
  simp [DotDims.lhsIdx, D, dot_S512x896_S896x128_S512x128_1_0_0_1_n_n]; rfl
theorem lhs_1 (j : S512x128.Idx) (k : D.contr.Idx) : (D.lhsIdx j k 1 : ℕ) = k ⟨0, by decide⟩ := by
  simp [DotDims.lhsIdx, D, dot_S512x896_S896x128_S512x128_1_0_0_1_n_n]; rfl
theorem rhs_0 (j : S512x128.Idx) (k : D.contr.Idx) : (D.rhsIdx j k 0 : ℕ) = k ⟨0, by decide⟩ := by
  simp [DotDims.rhsIdx, D, dot_S512x896_S896x128_S512x128_1_0_0_1_n_n]; rfl
theorem rhs_1 (j : S512x128.Idx) (k : D.contr.Idx) : (D.rhsIdx j k 1 : ℕ) = j 1 := by
  simp [DotDims.rhsIdx, D, dot_S512x896_S896x128_S512x128_1_0_0_1_n_n]; rfl

/-- The contracted index set is `Fin 896`. -/
abbrev cE : D.contr.Idx ≃ Fin 896 := contrEquiv1 D 896 rfl rfl

/-- The block product into a zero accumulator, read at (p, q): the sum over the 896 contracted columns of row `p` of the left
    operand times column `q` of the table slice, whose leading unit axis the shape cast drops. -/
theorem matmul_apply_pq (xs : FVec Ideal S512x896 .bf16) (blk : Vec Ideal S1x896x128 .bf16) (p : Fin 512) (q : Fin 128) :
    (matmul (F := Ideal) (φ₁ := .bf16) (φ₂ := .bf16) D none xs
        (shapeCast S896x128 blk shapeCasts_S1x896x128_S896x128 : FVec Ideal S896x128 .bf16)
        (constant S512x128 .f32 0x00000000#32)) (ix2 p q)
      = ∑ k : Fin 896, xs (ix2 p k) * blk (ix3 0 k q) := by
  refine (Ideal.matmul_constant_zero_apply D none xs _ (ix2 p q)).trans ?_
  refine (Equiv.sum_comp cE.symm _).symm.trans ?_
  refine Finset.sum_congr rfl fun k _ => ?_
  have hk : ((cE.symm k) ⟨0, by decide⟩ : ℕ) = k.val := contrEquiv1_symm_val D 896 rfl rfl k
  have h1 : D.lhsIdx (ix2 p q) (cE.symm k) = ix2 p k :=
    Shape.idx_ext₂ (lhs_0 _ _) ((lhs_1 _ _).trans hk)
  have h2 : (shapeCast S896x128 blk shapeCasts_S1x896x128_S896x128 : FVec Ideal S896x128 .bf16) (D.rhsIdx (ix2 p q) (cE.symm k))
      = blk (ix3 0 k q) := by
    refine shapeCast_apply blk _ _ (ix3 0 k q) ?_
    rw [Shape.rowMajor_val_three, Shape.rowMajor_val_two, rhs_0, rhs_1, hk]
    show (0 * 896 + k.val) * 128 + q.val = k.val * 128 + q.val
    omega
  show xs (D.lhsIdx (ix2 p q) (cE.symm k)) * _ = _
  rw [h1, h2]

/-- A [1,128] row flattened, restored and broadcast over the 512 rows reads, at (p, q), its entry q. -/
theorem row_apply {α : Type} (v : S1x128.Idx → α) (p : Fin 512) (q : Fin 128) :
    broadcastTo S512x128 (shapeCast S1x128 (shapeCast S128 v shapeCasts_S1x128_S128) shapeCasts_S128_S1x128)
      broadcasts_S1x128_S512x128 (ix2 p q) = v (ix2 0 q) := by
  rw [shapeCast_shapeCast]
  exact broadcastTo_apply v _ (ix2 p q) (ix2 0 q) fun a => match a with
    | ⟨0, _⟩ => rfl
    | ⟨1, _⟩ => rfl

theorem maxsi_apply {s : Shape} {w : Nat} (x y : IVec s w) (i : s.Idx) : maxsi x y i = IntOp.maxsi (x i) (y i) := rfl
theorem muli_apply {s : Shape} {w : Nat} (x y : IVec s w) (i : s.Idx) : muli x y i = IntOp.muli (x i) (y i) := rfl

/-- One update read at (p, q): the signed maximum of the running word and the comparison bit, widened, times the mask word. -/
theorem step_apply (xs : FVec Ideal S512x896 .bf16) (acc : IVec S512x128 32) (blk : Vec Ideal S1x896x128 .bf16)
    (cv : Vec Ideal S1x128 .f32) (mv : Vec Ideal S1x128 .i32) (p : Fin 512) (q : Fin 128) :
    step xs acc blk cv mv (ix2 p q)
      = IntOp.maxsi (acc (ix2 p q))
          (IntOp.muli ((Ideal.cmp .oeq (∑ k : Fin 896, xs (ix2 p k) * blk (ix3 0 k q)) (cv (ix2 0 q))).setWidth 32) (mv (ix2 0 q))) := by
  unfold step
  rw [maxsi_apply, muli_apply, extui_apply, cmpf_apply, matmul_apply_pq, row_apply, row_apply]
  rfl

/-! ## The loads and the left operand -/

/-- Slice `t` of the table, read at (0, k, q), is the table at (t, k, q). -/
theorem ld_blk (x1 : Vec Ideal S32x896x128 .bf16) (t : Nat) (h : t < 32)
    (inb : ∀ a, (![t, 0, 0] : Fin 3 → Nat) a + S1x896x128.size a ≤ S32x896x128.size a) (k : Fin 896) (q : Fin 128) :
    View.ld x1 (Rect.unit ![t, 0, 0] S1x896x128.size inb) (ix3 0 k q) = x1 (ix3 ⟨t, h⟩ k q) :=
  congrArg x1 (funext fun a => Fin.ext (match a with
    | ⟨0, _⟩ => by show t + 1 * 0 = t; omega
    | ⟨1, _⟩ => by show 0 + 1 * k.val = k.val; omega
    | ⟨2, _⟩ => by show 0 + 1 * q.val = q.val; omega))

/-- Row `t` of a [32,128] table, read at (0, q), is the table at (t, q). -/
theorem ld_row {e : EltTy} (x : Vec Ideal S32x128 e) (t : Nat) (h : t < 32)
    (inb : ∀ a, (![t, 0] : Fin 2 → Nat) a + S1x128.size a ≤ S32x128.size a) (q : Fin 128) :
    View.ld x (Rect.unit ![t, 0] S1x128.size inb) (ix2 0 q) = x (ix2 ⟨t, h⟩ q) :=
  congrArg x (funext fun a => Fin.ext (match a with
    | ⟨0, _⟩ => by show t + 1 * 0 = t; omega
    | ⟨1, _⟩ => by show 0 + 1 * q.val = q.val; omega))

theorem two_f32 : Ideal.ofBits .f32 0x40000000#32 = 2 := by
  simp [Ideal.ofBits, Ideal.ieee, -EReal.coe_mul]; norm_num; rfl
theorem one_f32 : Ideal.ofBits .f32 0x3F800000#32 = 1 := by
  simp [Ideal.ofBits, Ideal.ieee, -EReal.coe_mul]; norm_num

/-- The left operand at (p, k): the input word read as a signed integer, doubled, less one (the format change is the identity). -/
theorem xs_apply (x0 : Vec Ideal S512x896 .i32) (p : Fin 512) (k : Fin 896) :
    k0_pay2 (F := Ideal) (View.ld x0 r0_0) (ix2 p k) = (((x0 (ix2 p k)).toInt : ℝ) : EReal) * 2 - 1 := by
  rw [View.ld_unit_zero off0]
  unfold k0_pay2
  show (((shapeCast S512x896 x0 shapeCasts_S512x896_S512x896 (ix2 p k)).toInt : ℝ) : EReal)
      * Ideal.ofBits .f32 0x40000000#32 - Ideal.ofBits .f32 0x3F800000#32 = _
  rw [shapeCast_self, two_f32, one_f32]

/-! ## The result at one element as a chain of words -/

/-- OR-term `t`'s word at (p, q): the comparison of the signed dot product with the threshold, widened, times the mask word. -/
def cell (x0 : Vec Ideal S512x896 .i32) (x1 : Vec Ideal S32x896x128 .bf16) (x2 : Vec Ideal S32x128 .f32)
    (x3 : Vec Ideal S32x128 .i32) (p : Fin 512) (q : Fin 128) (t : Fin 32) : BitVec 32 :=
  IntOp.muli ((Ideal.cmp .oeq (∑ k : Fin 896, ((((x0 (ix2 p k)).toInt : ℝ) : EReal) * 2 - 1) * x1 (ix3 t k q))
    (x2 (ix2 t q))).setWidth 32) (x3 (ix2 t q))

/-- The signed maximum of the first `n` words of a family, from zero. -/
def chainS (c : Fin 32 → BitVec 32) : (n : Nat) → n ≤ 32 → BitVec 32
  | 0, _ => 0#32
  | n + 1, h => IntOp.maxsi (chainS c n (by omega)) (c ⟨n, by omega⟩)

theorem chainV_apply (x0 : Vec Ideal S512x896 .i32) (x1 : Vec Ideal S32x896x128 .bf16) (x2 : Vec Ideal S32x128 .f32)
    (x3 : Vec Ideal S32x128 .i32) (p : Fin 512) (q : Fin 128) :
    ∀ (n : Nat) (h : n ≤ 32), chainV x0 x1 x2 x3 n h (ix2 p q) = chainS (cell x0 x1 x2 x3 p q) n h
  | 0, _ => rfl
  | n + 1, h => by
    have hn : n < 32 := by omega
    rw [chainV, step_apply, chainV_apply x0 x1 x2 x3 p q n (by omega), chainS, ld_row x2 n hn, ld_row x3 n hn]
    unfold cell
    refine congrArg (fun s => IntOp.maxsi _ (IntOp.muli ((Ideal.cmp .oeq s _).setWidth 32) _)) ?_
    refine Finset.sum_congr rfl fun k _ => ?_
    rw [xs_apply, ld_blk x1 n hn]

/-! ## Words that are 0 or 1 -/

theorem maxsi_01 (a b : BitVec 32) (ha : a = 0#32 ∨ a = 1#32) (hb : b = 0#32 ∨ b = 1#32) :
    (IntOp.maxsi a b = 0#32 ∨ IntOp.maxsi a b = 1#32) ∧ (IntOp.maxsi a b ≠ 0#32 ↔ a ≠ 0#32 ∨ b = 1#32) := by
  rcases ha with rfl | rfl <;> rcases hb with rfl | rfl <;> decide

theorem cell_01 (a b : EReal) (m : BitVec 32) (hm : m = 0#32 ∨ m = 1#32) :
    (IntOp.muli ((Ideal.cmp .oeq a b).setWidth 32) m = 0#32 ∨ IntOp.muli ((Ideal.cmp .oeq a b).setWidth 32) m = 1#32)
      ∧ (IntOp.muli ((Ideal.cmp .oeq a b).setWidth 32) m = 1#32 ↔ a = b ∧ m = 1#32) := by
  have hc : Ideal.cmp .oeq a b = if a = b then 1#1 else 0#1 := by
    unfold Ideal.cmp; by_cases h : a = b <;> simp [h]
  rw [hc]
  by_cases h : a = b
  · rw [if_pos h]; rcases hm with rfl | rfl
    · exact ⟨Or.inl (by decide), by simp [h]; decide⟩
    · exact ⟨Or.inr (by decide), by simp [h]; decide⟩
  · rw [if_neg h]; rcases hm with rfl | rfl
    · exact ⟨Or.inl (by decide), by simp [h]; decide⟩
    · exact ⟨Or.inl (by decide), by simp [h]; decide⟩

theorem chainS_spec (c : Fin 32 → BitVec 32) (hc : ∀ t, c t = 0#32 ∨ c t = 1#32) :
    ∀ (n : Nat) (h : n ≤ 32), (chainS c n h = 0#32 ∨ chainS c n h = 1#32)
      ∧ (chainS c n h ≠ 0#32 ↔ ∃ t : Fin 32, t.val < n ∧ c t = 1#32)
  | 0, _ => ⟨Or.inl rfl, by simp [chainS]⟩
  | n + 1, h => by
    obtain ⟨h01, hiff⟩ := chainS_spec c hc n (by omega)
    obtain ⟨m01, miff⟩ := maxsi_01 _ _ h01 (hc ⟨n, by omega⟩)
    rw [chainS]
    refine ⟨m01, miff.trans ?_⟩
    rw [hiff]
    constructor
    · rintro (⟨t, ht, h1⟩ | h1)
      · exact ⟨t, by omega, h1⟩
      · exact ⟨⟨n, by omega⟩, Nat.lt_succ_self n, h1⟩
    · rintro ⟨t, ht, h1⟩
      by_cases htn : t.val < n
      · exact Or.inl ⟨t, htn, h1⟩
      · have ht' : t = ⟨n, by omega⟩ := Fin.ext (by show t.val = n; omega)
        exact Or.inr (ht' ▸ h1)

/-! ## The statement -/

open Idealize.ShloMosaic Idealize.ShloMosaic.ValueIdx Cert.KernelIdeal Cert.KernelIdeal.Gen in
theorem out0_4_ne_zero_iff (x0 : Vec Ideal S512x896 .i32) (x1 : Vec Ideal S32x896x128 .bf16) (x2 : Vec Ideal S32x128 .f32) (x3 : Vec Ideal S32x128 .i32)
    (p : Fin 512) (q : Fin 128) (h3 : ∀ t : Fin 32, x3 (ix2 t q) = 0#32 ∨ x3 (ix2 t q) = 1#32) :
    out0_4 (F := Ideal) x0 x1 x2 x3 (ix2 p q) ≠ 0#32 ↔
      ∃ t : Fin 32, (∑ k : Fin 896, ((((x0 (ix2 p k)).toInt : ℝ) : EReal) * 2 - 1) * x1 (ix3 t k q)) = x2 (ix2 t q) ∧ x3 (ix2 t q) = 1#32 := by
  rw [out_eq_chain, chainV_apply,
    (chainS_spec (cell x0 x1 x2 x3 p q) (fun t => (cell_01 _ _ _ (h3 t)).1) 32 le_rfl).2]
  constructor
  · rintro ⟨t, -, ht⟩; exact ⟨t, (cell_01 _ _ _ (h3 t)).2.mp ht⟩
  · rintro ⟨t, ht⟩; exact ⟨t, t.isLt, (cell_01 _ _ _ (h3 t)).2.mpr ht⟩

end Cert.KernelIdeal.Body

end
-- ==== Proof.LibScatterAdd.lean ====
/-
  A scatter whose body is word addition counts the updates it receives.

  A scatter is a left fold over the update indices, taken in row-major order: an update whose result
  index lies inside the operand replaces the element there by the body applied to the old element
  and to the update; an update whose result index falls outside is dropped. Take word addition for
  the body, the zero array for the operand, and updates that are each the word 0 or the word 1.
  Then one step of the fold adds 1 at an index i exactly when the update is 1 and lands on i, and
  adds 0 everywhere else; so after the whole fold the word at i is (modulo 2 ^ 32) the number of
  updates of value 1 that land on i. There are fewer than 2 ^ 32 updates, the sum cannot wrap, and
  the word read as a natural number IS that number.
-/
import Idealize.ShloMosaic.PureOps.ShapeOps
import Mathlib.Data.Finset.Card
import Mathlib.Data.Fintype.Basic

namespace Idealize.ShloMosaic.ScatterAdd

open Classical

variable {s si u : Shape} {w : ℕ}

/-- One step of the fold at an index i: the old word plus 1 when the update is 1 and its result
    index is i, the old word otherwise (the update is 0, or lands elsewhere, or is dropped). -/
theorem step_apply (d : ScatterDims s si u) (idx : IVec si w) (upd : IVec u 32)
    (h01 : ∀ j, upd j = 0#32 ∨ upd j = 1#32) (r : s.Idx → BitVec 32) (j : u.Idx) (i : s.Idx) :
    (match d.resultIdx? j idx with
      | some i₀ => fun i' => if i' = i₀ then IntOp.addi (r i₀) (upd j) else r i'
      | none => r) i
      = r i + (if d.resultIdx? j idx = some i ∧ upd j = 1#32 then 1#32 else 0#32) := by
  cases hres : d.resultIdx? j idx with
  | none => simp
  | some i₀ =>
    by_cases hi : i = i₀
    · subst hi
      rcases h01 j with h | h <;> simp [h, IntOp.addi]
    · have hi' : ¬ i₀ = i := fun h => hi h.symm
      simp [hi, hi']

/-- The fold over ANY list of update positions, from any starting array: the word at i is the
    starting word plus (as a word) the number of listed updates of value 1 that land on i. -/
theorem foldl_apply (d : ScatterDims s si u) (idx : IVec si w) (upd : IVec u 32)
    (h01 : ∀ j, upd j = 0#32 ∨ upd j = 1#32) (l : List (Fin u.numel)) (r : s.Idx → BitVec 32) (i : s.Idx) :
    (l.foldl (fun r n =>
        match d.resultIdx? (u.rowMajor.symm n) idx with
        | some i₀ => fun i' => if i' = i₀ then IntOp.addi (r i₀) (upd (u.rowMajor.symm n)) else r i'
        | none => r) r) i
      = r i + BitVec.ofNat 32 (l.countP fun n =>
          decide (d.resultIdx? (u.rowMajor.symm n) idx = some i ∧ upd (u.rowMajor.symm n) = 1#32)) := by
  induction l generalizing r with
  | nil => simp
  | cons n l ih =>
    rw [List.foldl_cons, ih, step_apply d idx upd h01, List.countP_cons, BitVec.add_assoc]
    congr 1
    by_cases hP : d.resultIdx? (u.rowMajor.symm n) idx = some i ∧ upd (u.rowMajor.symm n) = 1#32
    · simp only [hP, and_self, if_true, decide_true]
      rw [Nat.add_comm, BitVec.ofNat_add]
    · simp [hP]

/-- Over all update positions: the number of positions n whose update (the n-th in row-major order)
    is 1 and lands on i is the number of update indices j with that property — row-major order is
    a bijection between the two. -/
theorem countP_finRange_eq_card (d : ScatterDims s si u) (idx : IVec si w) (upd : IVec u 32) (i : s.Idx) :
    ((List.finRange u.numel).countP fun n =>
        decide (d.resultIdx? (u.rowMajor.symm n) idx = some i ∧ upd (u.rowMajor.symm n) = 1#32))
      = (Finset.univ.filter fun j : u.Idx => d.resultIdx? j idx = some i ∧ upd j = 1#32).card := by
  rw [List.countP_eq_length_filter,
    ← List.toFinset_card_of_nodup ((List.nodup_finRange _).filter _),
    List.toFinset_filter, List.toFinset_finRange]
  refine Finset.card_equiv u.rowMajor.symm fun n => ?_
  simp

/-- The count is at most the number of updates. -/
theorem card_le_numel (d : ScatterDims s si u) (idx : IVec si w) (upd : IVec u 32) (i : s.Idx) :
    (Finset.univ.filter fun j : u.Idx => d.resultIdx? j idx = some i ∧ upd j = 1#32).card ≤ u.numel := by
  refine (Finset.card_le_univ _).trans ?_
  rw [Shape.card_idx]

/-- A scatter with word addition into the zero array, every update the word 0 or 1 and fewer than
    2 ^ 32 updates in all: the word at i, read as a natural number, is the number of update indices
    whose update is 1 and whose result index is i. -/
theorem scatter_addi_toNat_count {s si u : Shape} {w : ℕ} (d : ScatterDims s si u) (idx : IVec si w) (upd : IVec u 32)
    (h01 : ∀ j, upd j = 0#32 ∨ upd j = 1#32) (hn : u.numel < 2 ^ 32) (i : s.Idx) :
    (Host.scatter d IntOp.addi (fun _ => 0#32) idx upd i).toNat
      = (Finset.univ.filter fun j : u.Idx => d.resultIdx? j idx = some i ∧ upd j = 1#32).card := by
  refine (congrArg BitVec.toNat (foldl_apply d idx upd h01 (List.finRange u.numel) (fun _ => 0#32) i)).trans ?_
  rw [countP_finRange_eq_card, BitVec.zero_add, BitVec.toNat_ofNat]
  exact Nat.mod_eq_of_lt ((card_le_numel d idx upd i).trans_lt hn)

/-- The same count, whatever decision procedure the filter is written with. -/
theorem scatter_addi_toNat_count' (d : ScatterDims s si u) (idx : IVec si w) (upd : IVec u 32)
    (h01 : ∀ j, upd j = 0#32 ∨ upd j = 1#32) (hn : u.numel < 2 ^ 32) (i : s.Idx)
    (inst : DecidablePred fun j : u.Idx => d.resultIdx? j idx = some i ∧ upd j = 1#32) :
    (Host.scatter d IntOp.addi (fun _ => 0#32) idx upd i).toNat
      = (@Finset.filter u.Idx (fun j : u.Idx => d.resultIdx? j idx = some i ∧ upd j = 1#32) inst Finset.univ).card := by
  rw [scatter_addi_toNat_count d idx upd h01 hn i]
  congr

/-- The word never exceeds the number of updates. -/
theorem scatter_addi_toNat_le (d : ScatterDims s si u) (idx : IVec si w) (upd : IVec u 32)
    (h01 : ∀ j, upd j = 0#32 ∨ upd j = 1#32) (hn : u.numel < 2 ^ 32) (i : s.Idx) :
    (Host.scatter d IntOp.addi (fun _ => 0#32) idx upd i).toNat ≤ u.numel := by
  rw [scatter_addi_toNat_count d idx upd h01 hn i]
  exact card_le_numel d idx upd i

/-- The word is nonzero exactly when some update of value 1 lands on i. -/
theorem scatter_addi_toNat_pos_iff (d : ScatterDims s si u) (idx : IVec si w) (upd : IVec u 32)
    (h01 : ∀ j, upd j = 0#32 ∨ upd j = 1#32) (hn : u.numel < 2 ^ 32) (i : s.Idx) :
    0 < (Host.scatter d IntOp.addi (fun _ => 0#32) idx upd i).toNat
      ↔ ∃ j : u.Idx, d.resultIdx? j idx = some i ∧ upd j = 1#32 := by
  rw [scatter_addi_toNat_count d idx upd h01 hn i, Finset.card_pos]
  constructor
  · rintro ⟨j, hj⟩
    exact ⟨j, (Finset.mem_filter.1 hj).2⟩
  · rintro ⟨j, hj⟩
    exact ⟨j, Finset.mem_filter.2 ⟨Finset.mem_univ j, hj⟩⟩

/-- With fewer than 2 ^ 31 updates the word is also a nonnegative SIGNED number, so it is greater
    than zero as a signed word exactly when some update of value 1 lands on i. -/
theorem scatter_addi_slt_zero_iff (d : ScatterDims s si u) (idx : IVec si w) (upd : IVec u 32)
    (h01 : ∀ j, upd j = 0#32 ∨ upd j = 1#32) (hn : u.numel < 2 ^ 31) (i : s.Idx) :
    (0#32).slt (Host.scatter d IntOp.addi (fun _ => 0#32) idx upd i) = true
      ↔ ∃ j : u.Idx, d.resultIdx? j idx = some i ∧ upd j = 1#32 := by
  have hn' : u.numel < 2 ^ 32 := by omega
  have hle := scatter_addi_toNat_le d idx upd h01 hn' i
  rw [← scatter_addi_toNat_pos_iff d idx upd h01 hn' i]
  have hint : (Host.scatter d IntOp.addi (fun _ => 0#32) idx upd i).toInt
      = ((Host.scatter d IntOp.addi (fun _ => 0#32) idx upd i).toNat : Int) :=
    BitVec.toInt_eq_toNat_of_lt (by omega)
  simp only [BitVec.slt, hint, BitVec.toInt_zero, decide_eq_true_eq]
  omega

/-- The same as a signed "greater than zero" compare of words. -/
theorem scatter_addi_cmpi_sgt_zero_iff (d : ScatterDims s si u) (idx : IVec si w) (upd : IVec u 32)
    (h01 : ∀ j, upd j = 0#32 ∨ upd j = 1#32) (hn : u.numel < 2 ^ 31) (i : s.Idx) :
    IntOp.cmpi .sgt (Host.scatter d IntOp.addi (fun _ => 0#32) idx upd i) 0#32 = 1#1
      ↔ ∃ j : u.Idx, d.resultIdx? j idx = some i ∧ upd j = 1#32 := by
  rw [← scatter_addi_slt_zero_iff d idx upd h01 hn i]
  show BitVec.ofBool ((0#32).slt (Host.scatter d IntOp.addi (fun _ => 0#32) idx upd i)) = 1#1 ↔ _
  cases (0#32).slt (Host.scatter d IntOp.addi (fun _ => 0#32) idx upd i) <;> simp

end Idealize.ShloMosaic.ScatterAdd
-- ==== Proof.Counts.lean ====
/-
  The two count tables built before the kernel, read at one entry.

  The weight table gives 65536 literal numbers: literal n = (o · 32 + t) · 16 + a is number a of term t of output o.
  A literal with number w in 1..784 is the plain input of column w − 1, one with w in 785..1568 the negated input of
  column w − 785, and w = 0 is the constant (column 0, counted by neither table). Each literal adds the word
  [1 ≤ w ≤ 784] (for the first table; [w > 784] for the second) at flat position (o · 32 + t) · 784 + column of a
  zero table of 4096 · 784 words, which is then read as 4096 rows of 784 columns.

  Such a position is below 2 ^ 31, so it is the same number read signed or unsigned, it is never negative (the
  wrap-around branch of the start index is not taken), and it lies inside the table: every literal lands. Because a
  column is below 784, position r · 784 + c is hit by literal n exactly when n / 16 = r and the literal's column is c.
  Adding words that are 0 or 1 into zeros counts the 1-words that land; at most 65536 of them do, so the count is
  a small non-negative word, and it is positive exactly when some literal of the term has the flag and the column:
  some literal of term (o, t) is column c itself (first table), or its negation (second table).
-/
import proofs.«415289_j48060684042318_1_alg».proof.Proof.KStage
import proofs.«415289_j48060684042318_1_alg».proof.Proof.Spec
import proofs.«415289_j48060684042318_1_alg».proof.Proof.LibScatterAdd
import Idealize.ShloMosaic.Lib.StableHlo.Predicate
import Idealize.ShloMosaic.Lib.Pipeline.Value
import Idealize.ShloMosaic.Lib.ValueIdx

noncomputable section

namespace Cert.KernelIdeal.Counts

open Idealize.ShloMosaic Idealize.ShloMosaic.ValueIdx Cert.KernelIdeal Cert.KernelIdeal.Gen Cert.KernelIdeal.Stage
open Idealize.ShloMosaic.StableHlo.Predicate

/-! ## Words -/

theorem and1_iff (x y : BitVec 1) : IntOp.andi x y = 1#1 ↔ x = 1#1 ∧ y = 1#1 := by
  rcases BitVec.eq_zero_or_eq_one x with rfl | rfl <;> rcases BitVec.eq_zero_or_eq_one y with rfl | rfl <;> decide

theorem sel_pos {α : Type} {c : BitVec 1} (h : c = 1#1) (a b : α) : Scalar.select c a b = a := by
  subst h; rfl

theorem sel_neg {α : Type} {c : BitVec 1} (h : c ≠ 1#1) (a b : α) : Scalar.select c a b = b := by
  unfold Scalar.select; exact if_neg h

/-- The input column a literal number names: w − 1 for a plain input, w − 785 for a negated one, 0 for the constant. -/
def col (w : ℕ) : ℕ := if 1 ≤ w ∧ w ≤ 784 then w - 1 else if 784 < w then w - 785 else 0

theorem col_lt (w : ℕ) (hw : w ≤ 1568) : col w < 784 := by
  unfold col; split
  · omega
  · split <;> omega

variable (W : IVec S128x32x16 32)

theorem isPos_apply (j : S128x32x16.Idx) :
    isPos W j = IntOp.andi (IntOp.cmpi .sge (W j) 1#32) (IntOp.cmpi .sle (W j) 784#32) := rfl

theorem isNeg_apply (j : S128x32x16.Idx) : isNeg W j = IntOp.cmpi .sgt (W j) 784#32 := rfl

theorem colW_apply (j : S128x32x16.Idx) :
    colW W j = Scalar.select (isPos W j) (IntOp.subi (W j) 1#32)
      (Scalar.select (isNeg W j) (IntOp.subi (IntOp.subi (W j) 1#32) 784#32) 0#32) := rfl

theorem isPos_iff (j : S128x32x16.Idx) (hj : (W j).toNat ≤ 1568) :
    isPos W j = 1#1 ↔ 1 ≤ (W j).toNat ∧ (W j).toNat ≤ 784 := by
  rw [isPos_apply, and1_iff, sge_iff_toNat (by omega) (by decide), sle_iff_toNat (by omega) (by decide)]
  rfl

theorem isNeg_iff (j : S128x32x16.Idx) (hj : (W j).toNat ≤ 1568) :
    isNeg W j = 1#1 ↔ 784 < (W j).toNat := by
  rw [isNeg_apply, sgt_iff_toNat (by omega) (by decide)]
  rfl

theorem colW_toNat (j : S128x32x16.Idx) (hj : (W j).toNat ≤ 1568) : (colW W j).toNat = col (W j).toNat := by
  rw [colW_apply]
  unfold col
  by_cases hp : 1 ≤ (W j).toNat ∧ (W j).toNat ≤ 784
  · rw [sel_pos ((isPos_iff W j hj).2 hp), if_pos hp]
    show (W j - 1#32).toNat = _
    rw [BitVec.toNat_sub]; simp only [BitVec.toNat_ofNat]; omega
  · rw [sel_neg (fun h => hp ((isPos_iff W j hj).1 h)), if_neg hp]
    by_cases hn : 784 < (W j).toNat
    · rw [sel_pos ((isNeg_iff W j hj).2 hn), if_pos hn]
      show (W j - 1#32 - 784#32).toNat = _
      rw [BitVec.toNat_sub, BitVec.toNat_sub]; simp only [BitVec.toNat_ofNat]; omega
    · rw [sel_neg (fun h => hn ((isNeg_iff W j hj).1 h)), if_neg hn]
      rfl

/-! ## The literal list: literal n is number a = n mod 16 of term t = (n / 16) mod 32 of output o = n / 512 -/

/-- The output of literal n. -/
def lo (n : Fin 65536) : Fin 128 := ⟨n.val / 512, by have := n.isLt; omega⟩
/-- The term of literal n. -/
def lt (n : Fin 65536) : Fin 32 := ⟨n.val / 16 % 32, by omega⟩
/-- The place of literal n in its term. -/
def la (n : Fin 65536) : Fin 16 := ⟨n.val % 16, by omega⟩
/-- The row of literal n in the [4096 × 16] table. -/
def lr (n : Fin 65536) : Fin 4096 := ⟨n.val / 16, by have := n.isLt; omega⟩
/-- The index of literal n in the weight table. -/
abbrev lix (n : Fin 65536) : S128x32x16.Idx := ix3 (lo n) (lt n) (la n)

variable (W : IVec S128x32x16 32)

/-- The [128, 32, 16] → [4096, 16] reshape of a table read at literal n. -/
theorem cast1_apply {α : Type} (x : S128x32x16.Idx → α) (n : Fin 65536) :
    shapeCast S4096x16 x shapeCasts_S128x32x16_S4096x16 (ix2 (lr n) (la n)) = x (lix n) := by
  refine shapeCast_apply x shapeCasts_S128x32x16_S4096x16 (ix2 (lr n) (la n)) (lix n) ?_
  rewrite [Shape.rowMajor_val_three, Shape.rowMajor_val_two]
  have := n.isLt
  show (n.val / 512 * 32 + n.val / 16 % 32) * 16 + n.val % 16 = n.val / 16 * 16 + n.val % 16
  omega

/-- The [4096, 16] → [65536] reshape of a table read at literal n. -/
theorem cast2_apply {α : Type} (x : S4096x16.Idx → α) (n : Fin 65536) :
    shapeCast S65536 x shapeCasts_S4096x16_S65536 (ix1 n) = x (ix2 (lr n) (la n)) := by
  refine shapeCast_apply x shapeCasts_S4096x16_S65536 (ix1 n) (ix2 (lr n) (la n)) ?_
  rewrite [Shape.rowMajor_val_two, Shape.rowMajor_val_one]
  show n.val / 16 * 16 + n.val % 16 = n.val
  omega

theorem posf_apply (n : Fin 65536) : posf W (ix1 n) = (isPos W (lix n)).setWidth 32 := by
  unfold posf
  refine (cast2_apply _ n).trans ?_
  exact congrArg (fun b : BitVec 1 => b.setWidth 32) (cast1_apply (isPos W) n)

theorem negf_apply (n : Fin 65536) : Stage.negf W (ix1 n) = (isNeg W (lix n)).setWidth 32 := by
  unfold Stage.negf
  refine (cast2_apply _ n).trans ?_
  exact congrArg (fun b : BitVec 1 => b.setWidth 32) (cast1_apply (isNeg W) n)

theorem setWidth_one_iff (b : BitVec 1) : b.setWidth 32 = 1#32 ↔ b = 1#1 := by
  rcases BitVec.eq_zero_or_eq_one b with rfl | rfl <;> decide

theorem setWidth_01 (b : BitVec 1) : b.setWidth 32 = 0#32 ∨ b.setWidth 32 = 1#32 := by
  rcases BitVec.eq_zero_or_eq_one b with rfl | rfl <;> decide

/-- The iota of term rows, laid along the rows of the [4096 × 16] table, read at (r, a). -/
theorem rows_apply (r : Fin 4096) (a : Fin 16) :
    broadcastInDim S4096x16 ![0, 1] bcast_S4096x1_S4096x16_0_1
      (broadcastInDim S4096x1 ![0] bcast_S4096_S4096x1_0 (iotaInDim S4096 32 0)) (ix2 r a) = BitVec.ofNat 32 r.val := by
  refine (broadcastInDim_apply _ bcast_S4096x1_S4096x16_0_1 _ (ix2 r a) (ix2 r (0 : Fin 1)) (fun b => match b with
    | ⟨0, _⟩ => by show r.val = if (4096 : Nat) = 1 then 0 else r.val; rw [if_neg (by decide)]
    | ⟨1, _⟩ => by show (0 : Nat) = if (1 : Nat) = 1 then 0 else a.val; rw [if_pos rfl])).trans ?_
  refine (broadcastInDim_apply _ bcast_S4096_S4096x1_0 _ (ix2 r (0 : Fin 1)) (ix1 r) (fun b => match b with
    | ⟨0, _⟩ => by show r.val = if (4096 : Nat) = 1 then 0 else r.val; rw [if_neg (by decide)])).trans ?_
  rfl

theorem flat0_apply (n : Fin 65536) :
    flat0 W (ix1 n) = IntOp.addi (IntOp.muli (BitVec.ofNat 32 (n.val / 16)) 784#32) (colW W (lix n)) := by
  unfold flat0
  refine (cast2_apply _ n).trans ?_
  show IntOp.addi (IntOp.muli _ _) _ = _
  rw [rows_apply, cast1_apply (colW W) n]
  rfl

theorem flat0_toNat (hw : ∀ j, (W j).toNat ≤ 1568) (n : Fin 65536) :
    (flat0 W (ix1 n)).toNat = n.val / 16 * 784 + col (W (lix n)).toNat := by
  rw [flat0_apply]
  show (BitVec.ofNat 32 (n.val / 16) * 784#32 + colW W (lix n)).toNat = _
  have hc := col_lt _ (hw (lix n))
  have := n.isLt
  rw [BitVec.toNat_add, BitVec.toNat_mul, colW_toNat W _ (hw _)]
  simp only [BitVec.toNat_ofNat]
  omega

theorem flat_apply (hw : ∀ j, (W j).toNat ≤ 1568) (n : Fin 65536) :
    flat W (ix2 n (0 : Fin 1)) = flat0 W (ix1 n) := by
  unfold flat
  refine (broadcastInDim_apply _ bcast_S65536_S65536x1_0 _ (ix2 n (0 : Fin 1)) (ix1 n) (fun b => match b with
    | ⟨0, _⟩ => by show n.val = if (65536 : Nat) = 1 then 0 else n.val; rw [if_neg (by decide)])).trans ?_
  show Scalar.select (IntOp.cmpi .slt (flat0 W (ix1 n)) 0#32) _ _ = _
  have h := flat0_toNat W hw n
  have hc := col_lt _ (hw (lix n))
  have := n.isLt
  refine sel_neg (fun hlt => ?_) _ _
  rw [slt_iff_toNat (by omega) (by decide)] at hlt
  exact absurd hlt (Nat.not_lt_zero _)

theorem flat_toInt (hw : ∀ j, (W j).toNat ≤ 1568) (n : Fin 65536) :
    (flat W (ix2 n (0 : Fin 1))).toInt = ((n.val / 16 * 784 + col (W (lix n)).toNat : ℕ) : ℤ) := by
  rw [flat_apply W hw, ← flat0_toNat W hw n]
  have h := flat0_toNat W hw n
  have hc := col_lt _ (hw (lix n))
  have := n.isLt
  exact toInt_eq_toNat_of_lt (by omega)

/-! ## Where an update lands: the start index read signed, when it is inside the table -/

abbrev sd : ScatterDims S3211264 S65536x1 S65536 := scatter_S3211264_S65536x1_S65536_n_0_0_1

theorem start_eq {w : ℕ} (idx : IVec S65536x1 w) (j : S65536.Idx) (a : Fin 1) :
    sd.start j idx a = (idx (ix2 (j 0) (0 : Fin 1))).toInt := by
  have ha : a = 0 := Subsingleton.elim _ _
  subst ha
  unfold ScatterDims.start
  rw [dif_pos (by decide)]
  refine congrArg (fun k => (idx k).toInt) ?_
  funext b
  match b with
  | ⟨0, _⟩ => rfl
  | ⟨1, _⟩ => rfl

theorem window_eq (j : S65536.Idx) (a : Fin 1) : sd.window j a = 0 := by
  have ha : a = 0 := Subsingleton.elim _ _
  subst ha
  unfold ScatterDims.window
  rw [dif_neg (by decide)]

theorem resultIdx_iff {w : ℕ} (idx : IVec S65536x1 w) (j : S65536.Idx) (i : S3211264.Idx) :
    sd.resultIdx? j idx = some i ↔ (idx (ix2 (j 0) (0 : Fin 1))).toInt = ((i 0).val : ℤ) := by
  have hi : (i 0).val < 3211264 := (i 0).isLt
  unfold ScatterDims.resultIdx?
  split
  · next h =>
    have h0 := h 0
    rw [start_eq, window_eq] at h0
    constructor
    · intro he
      have he' := congrFun (Option.some.inj he) 0
      have hv := congrArg Fin.val he'
      simp only [start_eq, window_eq] at hv
      omega
    · intro he
      refine congrArg some (funext fun a => ?_)
      have ha : a = 0 := Subsingleton.elim _ _
      subst ha
      apply Fin.ext
      simp only [start_eq, window_eq]
      omega
  · next h =>
    constructor
    · intro he; exact absurd he (by simp)
    · intro he
      exfalso; apply h
      intro a
      rw [start_eq, window_eq, he]
      have ha : a = 0 := Subsingleton.elim _ _
      subst ha
      show 0 ≤ ((i 0).val : ℤ) + ((0 : ℕ) : ℤ) ∧ ((i 0).val : ℤ) + ((0 : ℕ) : ℤ) < ((3211264 : ℕ) : ℤ)
      omega

/-! ## The count tables -/

/-- The flat position of row r, column c of a [4096 × 784] table. -/
def pos (r : Fin 4096) (c : Fin 784) : Fin 3211264 := ⟨r.val * 784 + c.val, by have := r.isLt; have := c.isLt; omega⟩

/-- The [3211264] → [4096, 784] reshape read at (r, c). -/
theorem cast3_apply {α : Type} (x : S3211264.Idx → α) (r : Fin 4096) (c : Fin 784) :
    shapeCast S4096x784 x shapeCasts_S3211264_S4096x784 (ix2 r c) = x (ix1 (pos r c)) := by
  refine shapeCast_apply x shapeCasts_S3211264_S4096x784 (ix2 r c) (ix1 (pos r c)) ?_
  rewrite [Shape.rowMajor_val_one, Shape.rowMajor_val_two]
  rfl

theorem sgt_zero_iff (x : BitVec 32) (hx : x.toNat < 2 ^ 31) : IntOp.cmpi .sgt x 0#32 = 1#1 ↔ 0 < x.toNat := by
  rw [sgt_iff_toNat hx (by decide)]; rfl

/-- A literal lands on position (r, c) exactly when it belongs to term row r and its column is c. -/
theorem lands_iff (hw : ∀ j, (W j).toNat ≤ 1568) (n : Fin 65536) (r : Fin 4096) (c : Fin 784) :
    sd.resultIdx? (ix1 n) (flat W) = some (ix1 (pos r c)) ↔ n.val / 16 = r.val ∧ col (W (lix n)).toNat = c.val := by
  rw [resultIdx_iff]
  show (flat W (ix2 n (0 : Fin 1))).toInt = ((r.val * 784 + c.val : ℕ) : ℤ) ↔ _
  rw [flat_toInt W hw n]
  have hc := col_lt _ (hw (lix n))
  have := c.isLt
  constructor
  · intro h; have h' := Int.ofNat.inj h; omega
  · rintro ⟨h1, h2⟩; rw [h1, h2]

/-- The scatter-added table of 0 / 1 flags, reshaped, is positive at (r, c) exactly when some literal of term row r
    with column c carries the flag 1. -/
theorem cnt_pos_iff (hw : ∀ j, (W j).toNat ≤ 1568) (upd : IVec S65536 32) (h01 : ∀ j, upd j = 0#32 ∨ upd j = 1#32)
    (r : Fin 4096) (c : Fin 784) :
    IntOp.cmpi .sgt (shapeCast S4096x784 (Host.scatter scatter_S3211264_S65536x1_S65536_n_0_0_1 IntOp.addi
        (broadcastInDim S3211264 ![] bcast_S_S3211264 (constantI S_ 32 0#32)) (flat W) upd)
        shapeCasts_S3211264_S4096x784 (ix2 r c)) 0#32 = 1#1
      ↔ ∃ n : Fin 65536, n.val / 16 = r.val ∧ col (W (lix n)).toNat = c.val ∧ upd (ix1 n) = 1#32 := by
  rw [cast3_apply]
  show IntOp.cmpi .sgt (Host.scatter sd IntOp.addi (fun _ => 0#32) (flat W) upd (ix1 (pos r c))) 0#32 = 1#1 ↔ _
  have hcount := Idealize.ShloMosaic.ScatterAdd.scatter_addi_toNat_count sd (flat W) upd h01 (by decide) (ix1 (pos r c))
  have hle : (Host.scatter sd IntOp.addi (fun _ => 0#32) (flat W) upd (ix1 (pos r c))).toNat ≤ 65536 := by
    rw [hcount]
    exact (Finset.card_le_univ _).trans_eq ((Fintype.card_congr S65536.rowMajor).trans (Fintype.card_fin _))
  rw [sgt_zero_iff _ (by omega), hcount, Finset.card_pos]
  constructor
  · rintro ⟨j, hj⟩
    have hj' := (Finset.mem_filter.1 hj).2
    obtain ⟨n, rfl⟩ : ∃ n : Fin 65536, j = ix1 n := ⟨j 0, eq_ix1 j⟩
    exact ⟨n, ((lands_iff W hw n r c).1 hj'.1).1, ((lands_iff W hw n r c).1 hj'.1).2, hj'.2⟩
  · rintro ⟨n, h1, h2, h3⟩
    exact ⟨ix1 n, Finset.mem_filter.2 ⟨Finset.mem_univ _, (lands_iff W hw n r c).2 ⟨h1, h2⟩, h3⟩⟩

theorem posf_01 (j : S65536.Idx) : posf W j = 0#32 ∨ posf W j = 1#32 := by
  obtain ⟨n, rfl⟩ : ∃ n : Fin 65536, j = ix1 n := ⟨j 0, eq_ix1 j⟩
  rw [posf_apply]; exact setWidth_01 _

theorem negf_01 (j : S65536.Idx) : Stage.negf W j = 0#32 ∨ Stage.negf W j = 1#32 := by
  obtain ⟨n, rfl⟩ : ∃ n : Fin 65536, j = ix1 n := ⟨j 0, eq_ix1 j⟩
  rw [negf_apply]; exact setWidth_01 _

/-- Literal number a of term (o, t) in the flat list. -/
def litOf (o : Fin 128) (t : Fin 32) (a : Fin 16) : Fin 65536 :=
  ⟨(o.val * 32 + t.val) * 16 + a.val, by have := o.isLt; have := t.isLt; have := a.isLt; omega⟩

theorem lix_litOf (o : Fin 128) (t : Fin 32) (a : Fin 16) : lix (litOf o t a) = ix3 o t a := by
  have := o.isLt; have := t.isLt; have := a.isLt
  have h0 : lo (litOf o t a) = o := Fin.ext (by show ((o.val * 32 + t.val) * 16 + a.val) / 512 = o.val; omega)
  have h1 : lt (litOf o t a) = t := Fin.ext (by show ((o.val * 32 + t.val) * 16 + a.val) / 16 % 32 = t.val; omega)
  have h2 : la (litOf o t a) = a := Fin.ext (by show ((o.val * 32 + t.val) * 16 + a.val) % 16 = a.val; omega)
  show ix3 _ _ _ = _
  rw [h0, h1, h2]

theorem lix_of_row (n : Fin 65536) (o : Fin 128) (t : Fin 32) (h : n.val / 16 = o.val * 32 + t.val) :
    lix n = ix3 o t (la n) := by
  have := o.isLt; have := t.isLt
  have h0 : lo n = o := Fin.ext (by show n.val / 512 = o.val; omega)
  have h1 : lt n = t := Fin.ext (by show n.val / 16 % 32 = t.val; omega)
  show ix3 _ _ _ = _
  rw [h0, h1]

theorem litOf_row (o : Fin 128) (t : Fin 32) (a : Fin 16) : (litOf o t a).val / 16 = (ot o t).val := by
  have := a.isLt
  show ((o.val * 32 + t.val) * 16 + a.val) / 16 = o.val * 32 + t.val
  omega

theorem posCnt_pos_iff (W : IVec S128x32x16 32) (hw : ∀ j, (W j).toNat ≤ 1568) (o : Fin 128) (t : Fin 32) (c : Fin 784) :
    IntOp.cmpi .sgt (posCnt W (ix2 (ot o t) c)) 0#32 = 1#1 ↔ Cert.Spec.Pos W o t c := by
  unfold posCnt
  rw [cnt_pos_iff W hw (posf W) (posf_01 W) (ot o t) c]
  have hc := c.isLt
  unfold Cert.Spec.Pos
  constructor
  · rintro ⟨n, h1, h2, h3⟩
    have hl := lix_of_row n o t h1
    rw [posf_apply, setWidth_one_iff, isPos_iff W _ (hw _)] at h3
    unfold col at h2
    rw [if_pos h3] at h2
    refine ⟨la n, ?_⟩
    rw [← hl]; omega
  · rintro ⟨a, ha⟩
    have hl := lix_litOf o t a
    have hp : 1 ≤ (W (lix (litOf o t a))).toNat ∧ (W (lix (litOf o t a))).toNat ≤ 784 := by rw [hl, ha]; omega
    refine ⟨litOf o t a, litOf_row o t a, ?_, ?_⟩
    · unfold col; rw [if_pos hp, hl, ha]; rfl
    · rw [posf_apply, setWidth_one_iff, isPos_iff W _ (hw _)]; exact hp

theorem negCnt_pos_iff (W : IVec S128x32x16 32) (hw : ∀ j, (W j).toNat ≤ 1568) (o : Fin 128) (t : Fin 32) (c : Fin 784) :
    IntOp.cmpi .sgt (negCnt W (ix2 (ot o t) c)) 0#32 = 1#1 ↔ Cert.Spec.Neg W o t c := by
  unfold negCnt
  rw [cnt_pos_iff W hw (Stage.negf W) (negf_01 W) (ot o t) c]
  have hc := c.isLt
  unfold Cert.Spec.Neg
  constructor
  · rintro ⟨n, h1, h2, h3⟩
    have hl := lix_of_row n o t h1
    rw [negf_apply, setWidth_one_iff, isNeg_iff W _ (hw _)] at h3
    unfold col at h2
    rw [if_neg (by omega), if_pos h3] at h2
    refine ⟨la n, ?_⟩
    rw [← hl]; omega
  · rintro ⟨a, ha⟩
    have hl := lix_litOf o t a
    have hp : 784 < (W (lix (litOf o t a))).toNat := by rw [hl, ha]; omega
    refine ⟨litOf o t a, litOf_row o t a, ?_, ?_⟩
    · unfold col; rw [if_neg (by omega), if_pos hp, hl, ha]; omega
    · rw [negf_apply, setWidth_one_iff, isNeg_iff W _ (hw _)]; exact hp

end Cert.KernelIdeal.Counts

end
-- ==== Proof.Tables.lean ====
/-
  The four arrays the kernel's windows read, each at one index, as the specification's plain functions of the two
  argument tables: the required signs laid out [term, column, output] and widened to 896 columns are `reqpad`, the
  number of constrained columns as a float laid out [term, output] is `cnt`, the validity word laid out
  [term, output] is 1 exactly when the term is `valid`, and the inputs widened to 896 columns are `xpad`.

  What the two count tables mean is taken as a hypothesis: entry (o · 32 + t, c) of the first is positive exactly when
  some literal of term (o, t) is input column c itself (`Pos`), and of the second exactly when some literal is its
  negation (`Neg`). From there every step is a read at one index: a transpose, a reshape (row o · 32 + t of a
  [4096 × …] table is term (o, t)), a padding (inside the operand, or the padding value), a select on a decided bit,
  and three reductions over the columns of a rectangle: an OR is an "exists", an AND a "for all", and a sum of widened
  bits a count.
-/
import proofs.«415289_j48060684042318_1_alg».proof.Proof.KStage
import proofs.«415289_j48060684042318_1_alg».proof.Proof.Spec
import Idealize.ShloMosaic.Lib.ValueIdx
import Idealize.ShloMosaic.Lib.Pipeline.Value
import Idealize.ShloMosaic.Lib.KernelVsHost
import Idealize.ShloMosaic.Lib.ReduceAll
import Idealize.ShloMosaic.Lib.StableHlo.Predicate
import Idealize.ShloMosaic.PureOps.Ideal.Laws

noncomputable section

namespace Cert.KernelIdeal.Tables

open Idealize.ShloMosaic Idealize.ShloMosaic.ValueIdx Cert.KernelIdeal Cert.KernelIdeal.Gen Cert.KernelIdeal.Stage
open Classical

/-! ## Folds of one-bit words: an OR from 0 is an "exists", an AND from 1 a "for all" -/

section Folds
variable {ι : Type} [DecidableEq ι]

/-- A fold by OR from 0 is 1 exactly when some element is 1. -/
theorem fold_ori_eq_one (S : Finset ι) (f : ι → BitVec 1) :
    S.fold IntOp.ori 0#1 f = 1#1 ↔ ∃ i ∈ S, f i = 1#1 := by
  induction S using Finset.cons_induction with
  | empty => simp
  | cons a S ha ih =>
    rw [Finset.fold_cons, IntOp.ori_eq_one, ih]
    constructor
    · rintro (h | ⟨i, hi, h⟩)
      · exact ⟨a, Finset.mem_cons_self a S, h⟩
      · exact ⟨i, Finset.mem_cons.2 (Or.inr hi), h⟩
    · rintro ⟨i, hi, h⟩
      rcases Finset.mem_cons.1 hi with rfl | hi
      · exact Or.inl h
      · exact Or.inr ⟨i, hi, h⟩

/-- A fold by AND from 1 is 1 exactly when every element is 1. -/
theorem fold_andi_eq_one (S : Finset ι) (f : ι → BitVec 1) :
    S.fold IntOp.andi 1#1 f = 1#1 ↔ ∀ i ∈ S, f i = 1#1 := by
  induction S using Finset.cons_induction with
  | empty => simp
  | cons a S ha ih =>
    rw [Finset.fold_cons, IntOp.andi_eq_one, ih]
    constructor
    · rintro ⟨h, hS⟩ i hi
      rcases Finset.mem_cons.1 hi with rfl | hi
      · exact h
      · exact hS i hi
    · intro h
      exact ⟨h a (Finset.mem_cons_self a S), fun i hi => h i (Finset.mem_cons.2 (Or.inr hi))⟩

end Folds

/-! ## Reductions over the columns of a rectangle -/

section Cols
variable {n m : Nat}

/-- Reducing an [n × m] rectangle over its columns sends an index to its row. -/
theorem drop_cols_iff (h : (⟨2, ![n, m]⟩ : Shape).ReducesTo [1] ⟨1, ![n]⟩) (i : (⟨2, ![n, m]⟩ : Shape).Idx) (p : Fin n) :
    h.drop i = ix1 p ↔ i 0 = p := by
  have hv : (h.drop i 0 : Nat) = i 0 := Shape.ReducesTo.drop_apply_val h i 0
  constructor
  · intro e
    rw [e] at hv
    exact Fin.ext hv.symm
  · intro e
    funext b
    obtain rfl : b = 0 := Subsingleton.elim _ _
    exact Fin.ext (by rw [hv, e]; rfl)

/-- An index of row `p` is (p, its column). -/
theorem ix2_row_eta (i : (⟨2, ![n, m]⟩ : Shape).Idx) (p : Fin n) (h0 : i 0 = p) : ix2 p (i 1) = i := by
  funext b
  match b with
  | ⟨0, _⟩ => exact h0.symm
  | ⟨1, _⟩ => rfl

/-- The OR over the columns is 1 at row `p` exactly when some column of row `p` holds 1. -/
theorem reduce_ori_cols (mask : IVec ⟨2, ![n, m]⟩ 1) (h : (⟨2, ![n, m]⟩ : Shape).ReducesTo [1] ⟨1, ![n]⟩)
    {u : Shape} (hu : 0 < u.numel) (p : Fin n) :
    Host.reduce IntOp.ori mask (constantI u 1 0#1) h hu (ix1 p) = 1#1 ↔ ∃ q : Fin m, mask (ix2 p q) = 1#1 := by
  rw [Host.reduce_eq_fold]
  show Finset.fold IntOp.ori 0#1 mask _ = 1#1 ↔ _
  rw [fold_ori_eq_one]
  constructor
  · rintro ⟨i, hi, e⟩
    have h0 := (drop_cols_iff h i p).1 (Finset.mem_filter.1 hi).2
    exact ⟨i 1, (congrArg mask (ix2_row_eta i p h0)).trans e⟩
  · rintro ⟨q, e⟩
    exact ⟨ix2 p q, Finset.mem_filter.2 ⟨Finset.mem_univ _, (drop_cols_iff h _ p).2 rfl⟩, e⟩

/-- The AND over the columns is 1 at row `p` exactly when every column of row `p` holds 1. -/
theorem reduce_andi_cols (mask : IVec ⟨2, ![n, m]⟩ 1) (h : (⟨2, ![n, m]⟩ : Shape).ReducesTo [1] ⟨1, ![n]⟩)
    {u : Shape} (hu : 0 < u.numel) (p : Fin n) :
    Host.reduce IntOp.andi mask (constantI u 1 1#1) h hu (ix1 p) = 1#1 ↔ ∀ q : Fin m, mask (ix2 p q) = 1#1 := by
  rw [Host.reduce_eq_fold]
  show Finset.fold IntOp.andi 1#1 mask _ = 1#1 ↔ _
  rw [fold_andi_eq_one]
  constructor
  · intro hall q
    exact hall (ix2 p q) (Finset.mem_filter.2 ⟨Finset.mem_univ _, (drop_cols_iff h _ p).2 rfl⟩)
  · intro hall i hi
    have h0 := (drop_cols_iff h i p).1 (Finset.mem_filter.1 hi).2
    exact (congrArg mask (ix2_row_eta i p h0)).symm.trans (hall (i 1))

end Cols

/-! ## The float constants the sign table spells, as extended reals -/

/-- The pattern of `1.0` denotes 1. -/
theorem ofBits_one : Ideal.ofBits .f32 0x3F800000#32 = 1 := by
  simp [Ideal.ofBits, Ideal.ieee, -EReal.coe_mul]; norm_num

/-- The pattern of `-1.0` denotes −1. -/
theorem ofBits_neg_one : Ideal.ofBits .f32 0xBF800000#32 = -1 := by
  simp [Ideal.ofBits, Ideal.ieee, -EReal.coe_mul]; norm_num

/-! ## The inputs widened to 896 columns -/

/-- The padded input table at (b, k) is the input at (b, k) below column 784 and the zero word from there on. -/
theorem A81_apply (X : IVec S4096x784 32) (b : Fin 4096) (k : Fin 896) : A81 X (ix2 b k) = Cert.Spec.xpad X b k := by
  unfold A81 Cert.Spec.xpad
  by_cases h : k.val < 784
  · rw [dif_pos h]
    exact pad_apply_of_inside _ _ _ X _ pads_S4096x784_S4096x896_000_01120 h_S_ (ix2 b k) (ix2 b ⟨k.val, h⟩)
      (fun a => match a with
        | ⟨0, _⟩ => by show b.val = 0 + b.val * (0 + 1); omega
        | ⟨1, _⟩ => by show k.val = 0 + k.val * (0 + 1); omega)
  · rw [dif_neg h]
    exact pad_apply_of_not_inside _ _ _ X _ pads_S4096x784_S4096x896_000_01120 h_S_ (ix2 b k) 1 (by
      show ¬(0 ≤ k.val ∧ (k.val - 0) % (0 + 1) = 0 ∧ (k.val - 0) / (0 + 1) < 784)
      omega)

/-! ## The validity words -/

/-- The complement of a one-bit word is 1 exactly when the word is not. -/
theorem not_eq_one_iff (b : BitVec 1) : ~~~b = 1#1 ↔ ¬b = 1#1 := by revert b; decide

section Valid
variable (W : IVec S128x32x16 32)
  (hP : ∀ (o : Fin 128) (t : Fin 32) (c : Fin 784), IntOp.cmpi .sgt (posCnt W (ix2 (ot o t) c)) 0#32 = 1#1 ↔ Cert.Spec.Pos W o t c)
  (hN : ∀ (o : Fin 128) (t : Fin 32) (c : Fin 784), IntOp.cmpi .sgt (negCnt W (ix2 (ot o t) c)) 0#32 = 1#1 ↔ Cert.Spec.Neg W o t c)

/-- The "all sixteen numbers are zero" flag at row o · 32 + t says so of term (o, t). -/
theorem allZero_iff (o : Fin 128) (t : Fin 32) :
    allZero W (ix1 (ot o t)) = 1#1 ↔ ∀ a : Fin 16, W (ix3 o t a) = 0#32 := by
  unfold allZero
  refine (reduce_andi_cols (n := 4096) (m := 16) _ _ _ _).trans (forall_congr' fun a => ?_)
  show IntOp.cmpi .eq (shapeCast S4096x16 W shapeCasts_S128x32x16_S4096x16 (ix2 (ot o t) a)) 0#32 = 1#1 ↔ _
  rw [shapeCast_apply W shapeCasts_S128x32x16_S4096x16 (ix2 (ot o t) a) (ix3 o t a) (by
    rewrite [Shape.rowMajor_val_three, Shape.rowMajor_val_two]; rfl)]
  exact IntOp.cmpi_eq

include hP hN in
/-- The "asked both ways" flag at row o · 32 + t says some column is asked set and clear by term (o, t). -/
theorem contra_iff (o : Fin 128) (t : Fin 32) :
    contra W (ix1 (ot o t)) = 1#1 ↔ ∃ c : Fin 784, Cert.Spec.Pos W o t c ∧ Cert.Spec.Neg W o t c := by
  unfold contra
  refine (reduce_ori_cols (n := 4096) (m := 784) _ _ _ _).trans (exists_congr fun c => ?_)
  show IntOp.andi (IntOp.cmpi .sgt (posCnt W (ix2 (ot o t) c)) 0#32) (IntOp.cmpi .sgt (negCnt W (ix2 (ot o t) c)) 0#32) = 1#1 ↔ _
  rw [IntOp.andi_eq_one, hP, hN]

include hP hN in
/-- The validity bit at row o · 32 + t is 1 exactly when term (o, t) is valid. -/
theorem vld_iff (o : Fin 128) (t : Fin 32) : vld W (ix1 (ot o t)) = 1#1 ↔ Cert.Spec.valid W o t := by
  show IntOp.andi (~~~(allZero W (ix1 (ot o t)))) (~~~(contra W (ix1 (ot o t)))) = 1#1 ↔ _
  rw [IntOp.andi_eq_one, not_eq_one_iff, not_eq_one_iff, allZero_iff, contra_iff W hP hN]
  unfold Cert.Spec.valid
  rw [not_forall]

include hP hN in
/-- The validity word at (t, o) is 1 when term (o, t) is valid and 0 otherwise. -/
theorem A80_apply (t : Fin 32) (o : Fin 128) :
    A80 W (ix2 t o) = if Cert.Spec.valid W o t then 1#32 else 0#32 := by
  unfold A80
  refine (transpose_apply [1, 0] _ transposes_S128x32_S32x128_1_0 (ix2 t o) (ix2 o t)
    (fun b => match b with | ⟨0, _⟩ => rfl | ⟨1, _⟩ => rfl)).trans ?_
  rw [extui_apply, shapeCast_apply (vld W) shapeCasts_S4096_S128x32 (ix2 o t) (ix1 (ot o t)) (by
    rewrite [Shape.rowMajor_val_one, Shape.rowMajor_val_two]; rfl)]
  by_cases hv : Cert.Spec.valid W o t
  · rw [if_pos hv, (vld_iff W hP hN o t).2 hv]; rfl
  · rw [if_neg hv, eq_zero_of_ne_one (fun e => hv ((vld_iff W hP hN o t).1 e))]; rfl

end Valid

/-! ## The required signs -/

section Signs
variable (W : IVec S128x32x16 32)
  (hP : ∀ (o : Fin 128) (t : Fin 32) (c : Fin 784), IntOp.cmpi .sgt (posCnt W (ix2 (ot o t) c)) 0#32 = 1#1 ↔ Cert.Spec.Pos W o t c)
  (hN : ∀ (o : Fin 128) (t : Fin 32) (c : Fin 784), IntOp.cmpi .sgt (negCnt W (ix2 (ot o t) c)) 0#32 = 1#1 ↔ Cert.Spec.Neg W o t c)

/-- A word comparison of two arrays at an index compares the elements. -/
theorem cmpi_apply {s : Shape} {w : Nat} (p : CmpIPredicate) (x y : IVec s w) (i : s.Idx) :
    cmpi p x y i = IntOp.cmpi p (x i) (y i) := rfl
/-- A word spread over the count tables' shape reads that word everywhere. -/
theorem bT_apply (v : BitVec 32) (i : S4096x784.Idx) : bT v i = v := rfl
/-- A float constant spread over the count tables' shape reads, everywhere, the extended real its pattern denotes. -/
theorem bF_apply (b : BitVec 32) (i : S4096x784.Idx) :
    broadcastInDim S4096x784 ![] bcast_S_S4096x784 (constant (F := Ideal) S_ .f32 b) i = Ideal.ofBits .f32 b := rfl
/-- A float comparison of two extended reals is the linear order's. -/
theorem cmpf_ideal (p : CmpFPredicate) (x y : Ideal .f32) : FloatOps.cmpf (F := Ideal) p x y = Ideal.cmp p x y := rfl

/-- The sign table at an index: 1.0 where the first count is positive, else −1.0 where the second is, else 0.0. -/
theorem reqA_read (i : S4096x784.Idx) : reqA (F := Ideal) W i =
    Scalar.select (IntOp.cmpi .sgt (posCnt W i) 0#32) (Ideal.ofBits .f32 0x3F800000#32)
      (Scalar.select (IntOp.cmpi .sgt (negCnt W i) 0#32) (Ideal.ofBits .f32 0xBF800000#32)
        (Ideal.ofBits .f32 0x00000000#32)) := by
  simp only [reqA, id, select_apply, cmpi_apply, bT_apply]
  exact congrArg₂ (Scalar.select _) (bF_apply _ i) (congrArg₂ (Scalar.select _) (bF_apply _ i) (bF_apply _ i))

include hP hN in
/-- The sign table at row o · 32 + t, column c is the sign term (o, t) requires of column c. -/
theorem reqA_apply (o : Fin 128) (t : Fin 32) (c : Fin 784) :
    reqA (F := Ideal) W (ix2 (ot o t) c) = ((Cert.Spec.req W o t c : ℝ) : EReal) := by
  rw [reqA_read]
  unfold Cert.Spec.req
  rw [ofBits_one, ofBits_neg_one, Ideal.ofBits_zero_f32]
  by_cases p : Cert.Spec.Pos W o t c
  · rw [(hP o t c).2 p, select_one, if_pos p, EReal.coe_one]
  · rw [eq_zero_of_ne_one (fun e => p ((hP o t c).1 e)), select_zero, if_neg p]
    by_cases q : Cert.Spec.Neg W o t c
    · rw [(hN o t c).2 q, select_one, if_pos q, EReal.coe_neg, EReal.coe_one]
    · rw [eq_zero_of_ne_one (fun e => q ((hN o t c).1 e)), select_zero, if_neg q, EReal.coe_zero]

include hP hN in
/-- The sign array at (t, k, o) is the required sign of column k below 784 and zero from there on. -/
theorem A74_apply (t : Fin 32) (k : Fin 896) (o : Fin 128) :
    A74 (F := Ideal) W (ix3 t k o) = Cert.Spec.reqpad W t k o := by
  unfold A74 Cert.Spec.reqpad
  refine (truncf_apply (ψ := .bf16) _ bitsLt_bf16_f32 (ix3 t k o)).trans ?_
  by_cases h : k.val < 784
  · rw [dif_pos h]
    refine (pad_apply_of_inside _ _ _ _ _ pads_S32x784x128_S32x896x128_000_01120_000 h_S_ (ix3 t k o)
      (ix3 t ⟨k.val, h⟩ o) (fun a => match a with
        | ⟨0, _⟩ => by show t.val = 0 + t.val * (0 + 1); omega
        | ⟨1, _⟩ => by show k.val = 0 + k.val * (0 + 1); omega
        | ⟨2, _⟩ => by show o.val = 0 + o.val * (0 + 1); omega)).trans ?_
    refine (transpose_apply [1, 2, 0] _ transposes_S128x32x784_S32x784x128_1_2_0 (ix3 t ⟨k.val, h⟩ o)
      (ix3 o t ⟨k.val, h⟩) (fun b => match b with | ⟨0, _⟩ => rfl | ⟨1, _⟩ => rfl | ⟨2, _⟩ => rfl)).trans ?_
    refine (shapeCast_apply (reqA (F := Ideal) W) shapeCasts_S4096x784_S128x32x784 (ix3 o t ⟨k.val, h⟩)
      (ix2 (ot o t) ⟨k.val, h⟩) (by rewrite [Shape.rowMajor_val_two, Shape.rowMajor_val_three]; rfl)).trans ?_
    exact reqA_apply W hP hN o t ⟨k.val, h⟩
  · rw [dif_neg h]
    refine (pad_apply_of_not_inside _ _ _ _ _ pads_S32x784x128_S32x896x128_000_01120_000 h_S_ (ix3 t k o) 1 (by
      show ¬(0 ≤ k.val ∧ (k.val - 0) % (0 + 1) = 0 ∧ (k.val - 0) / (0 + 1) < 784)
      omega)).trans ?_
    show (((0#32 : BitVec 32).toInt : ℝ) : EReal) = 0
    simp

/-! ## The number of constrained columns -/

include hP hN in
/-- The count at row o · 32 + t is the number of columns term (o, t) constrains. -/
theorem rcount_toNat (o : Fin 128) (t : Fin 32) :
    (rcount (F := Ideal) W (ix1 (ot o t))).toNat = Cert.Spec.cnt W o t := by
  unfold rcount Cert.Spec.cnt
  rw [StableHlo.Predicate.toNat_reduce_count_cols (n := 4096) (m := 784) (by norm_num) _ natLt_1_32
    reducesTo_S4096x784_S4096_d1 h_S_ (ix1 (ot o t))]
  refine congrArg Finset.card (Finset.filter_congr fun c _ => ?_)
  show cmpf .une _ _ (ix2 (ot o t) c) = 1#1 ↔ _
  rw [cmpf_apply, bF_apply, reqA_apply W hP hN, Ideal.ofBits_zero_f32, cmpf_ideal]
  unfold Ideal.cmp
  rw [StableHlo.Predicate.ofBool_eq_one_iff, decide_eq_true_iff]
  unfold Cert.Spec.req
  by_cases p : Cert.Spec.Pos W o t c
  · simp [p]
  · by_cases q : Cert.Spec.Neg W o t c
    · simp [p, q]
    · simp [p, q]

include hP hN in
/-- The count array at (t, o) is the number of columns term (o, t) constrains, as a real. -/
theorem A77_apply (t : Fin 32) (o : Fin 128) :
    A77 (F := Ideal) W (ix2 t o) = ((Cert.Spec.cnt W o t : ℝ) : EReal) := by
  unfold A77
  refine (transpose_apply [1, 0] _ transposes_S128x32_S32x128_1_0 (ix2 t o) (ix2 o t)
    (fun b => match b with | ⟨0, _⟩ => rfl | ⟨1, _⟩ => rfl)).trans ?_
  rw [sitofp_apply, shapeCast_apply (rcount (F := Ideal) W) shapeCasts_S4096_S128x32 (ix2 o t) (ix1 (ot o t)) (by
    rewrite [Shape.rowMajor_val_one, Shape.rowMajor_val_two]; rfl)]
  show (((rcount (F := Ideal) W (ix1 (ot o t))).toInt : ℝ) : EReal) = _
  have hc := rcount_toNat W hP hN o t
  have hlt : (rcount (F := Ideal) W (ix1 (ot o t))).toNat < 2 ^ 31 := by
    rw [hc]
    unfold Cert.Spec.cnt
    exact lt_of_le_of_lt (Finset.card_le_univ _) (by simp)
  rw [StableHlo.Predicate.toInt_eq_toNat_of_lt hlt, hc, Int.cast_natCast]

end Signs

end Cert.KernelIdeal.Tables

end
-- ==== Proof.KFinal.lean ====
/-
  The kernel's result as the specification: entry (b, o) of the word array the region leaves is not zero exactly when
  some OR-term of output o holds on row b; so "that word is not zero" is the specified bit.

  The region's word at (b, o) is not zero iff for some term t the signed dot product of row b with the term's required
  signs equals the number of constrained columns and the term is valid; the host tables are the required signs, the
  counts and the validity flags; and that condition is the term's truth.
-/
import proofs.«415289_j48060684042318_1_alg».proof.Proof.Spec
import proofs.«415289_j48060684042318_1_alg».proof.Proof.Core
import proofs.«415289_j48060684042318_1_alg».proof.Proof.Body
import proofs.«415289_j48060684042318_1_alg».proof.Proof.Counts
import proofs.«415289_j48060684042318_1_alg».proof.Proof.Tables
import proofs.«415289_j48060684042318_1_alg».proof.Proof.KValue

noncomputable section

namespace Cert.KernelIdeal.KFinal

open Idealize.ShloMosaic Idealize.ShloMosaic.ValueIdx
open Cert.KernelIdeal Cert.KernelIdeal.Gen
open Classical

/-- Row b mod 512 of the rows of point b / 512 is row b. -/
theorem rows_apply (X : IVec S4096x896 32) (b : Fin 4096) (k : Fin 896) :
    KValue.rows (F := Ideal) X ⟨b.val / 512, by have := b.isLt; omega⟩ (ix2 ⟨b.val % 512, Nat.mod_lt _ (by decide)⟩ k) = X (ix2 b k) := by
  unfold KValue.rows
  refine congrArg X (funext fun a => Fin.ext ?_)
  match a with
  | ⟨0, _⟩ => show b.val / 512 * 512 + b.val % 512 = b.val; omega
  | ⟨1, _⟩ => rfl

/-- The word the region leaves at (b, o) is not zero iff some OR-term of output o holds on row b. -/
theorem K_ne_zero_iff (x : IVec S4096x784 32) (W : IVec S128x32x16 32) (hx : ∀ i, x i = 0#32 ∨ x i = 1#32) (hw : ∀ j, (W j).toNat ≤ 1568)
    (b : Fin 4096) (o : Fin 128) :
    KValue.K (F := Ideal) (Stage.A81 x) (Stage.A74 (F := Ideal) W) (Stage.A77 (F := Ideal) W) (Stage.A80 W) (ix2 b o) ≠ 0#32
      ↔ ∃ t : Fin 32, Cert.Spec.term x W b o t := by
  have hP := fun o t c => Counts.posCnt_pos_iff W hw o t c
  have hN := fun o t c => Counts.negCnt_pos_iff W hw o t c
  have h3 : ∀ t : Fin 32, Stage.A80 W (ix2 t o) = 0#32 ∨ Stage.A80 W (ix2 t o) = 1#32 := by
    intro t; rw [Tables.A80_apply W hP hN t o]; by_cases hv : Cert.Spec.valid W o t
    · rw [if_pos hv]; exact Or.inr rfl
    · rw [if_neg hv]; exact Or.inl rfl
  unfold KValue.K
  refine (Body.out0_4_ne_zero_iff _ _ _ _ ⟨b.val % 512, Nat.mod_lt _ (by decide)⟩ o h3).trans ?_
  rw [← Cert.Core.kernel_cond_iff x W hx hw b o]
  refine exists_congr fun t => ?_
  rw [Tables.A77_apply W hP hN t o, Tables.A80_apply W hP hN t o]
  have e : ∀ k : Fin 896, ((((KValue.rows (F := Ideal) (Stage.A81 x) ⟨b.val / 512, by have := b.isLt; omega⟩
        (ix2 ⟨b.val % 512, Nat.mod_lt _ (by decide)⟩ k)).toInt : ℝ) : EReal) * 2 - 1) * Stage.A74 (F := Ideal) W (ix3 t k o)
      = ((((Cert.Spec.xpad x b k).toInt : ℝ) : EReal) * 2 - 1) * Cert.Spec.reqpad W t k o := by
    intro k
    rw [rows_apply, Tables.A81_apply x b k, Tables.A74_apply W hP hN t k o]
  rw [Finset.sum_congr rfl (fun k _ => e k)]

/-- "The region's word is not zero", as an array of bits, is the specified result. -/
theorem result_eq (x : IVec S4096x784 32) (W : IVec S128x32x16 32) (hx : ∀ i, x i = 0#32 ∨ x i = 1#32) (hw : ∀ j, (W j).toNat ≤ 1568) :
    (cmpi .ne (KValue.K (F := Ideal) (Stage.A81 x) (Stage.A74 (F := Ideal) W) (Stage.A77 (F := Ideal) W) (Stage.A80 W)) KValue.zeroOut : IVec S4096x128 1)
      = Cert.Spec.G x W := by
  funext i
  obtain ⟨b, o, rfl⟩ : ∃ (b : Fin 4096) (o : Fin 128), i = ix2 b o := ⟨i 0, i 1, eq_ix2 i⟩
  have hz : KValue.zeroOut (ix2 b o) = 0#32 := broadcastInDim_apply _ bcast_S_S4096x128 _ (ix2 b o) ix0 (fun a => a.elim0)
  show IntOp.cmpi .ne (KValue.K (F := Ideal) (Stage.A81 x) (Stage.A74 (F := Ideal) W) (Stage.A77 (F := Ideal) W) (Stage.A80 W) (ix2 b o)) (KValue.zeroOut (ix2 b o)) = Cert.Spec.G x W (ix2 b o)
  rw [hz]
  unfold Cert.Spec.G
  have key := K_ne_zero_iff x W hx hw b o
  by_cases h : ∃ t : Fin 32, Cert.Spec.term x W b o t
  · rw [if_pos h]
    have hne := key.2 h
    show BitVec.ofBool (_ != 0#32) = 1#1
    rw [bne_iff_ne.2 hne]; rfl
  · rw [if_neg h]
    have heq : KValue.K (F := Ideal) (Stage.A81 x) (Stage.A74 (F := Ideal) W) (Stage.A77 (F := Ideal) W) (Stage.A80 W) (ix2 b o) = 0#32 :=
      by_contra fun hne => h (key.1 hne)
    rw [heq]; rfl

end Cert.KernelIdeal.KFinal

end
-- ==== Proof.lean ====
/-
  The certificate's claims.

  Both programs compute, for 4096 rows of 784 boolean inputs and 128 outputs of 32 OR-terms of 16 literals each
  (a literal is the constant True, an input column, or a negated input column), whether some non-padding term has all
  its literals true on the row. The reference gathers the literals out of the table [True | x | ¬x] and reduces with
  AND then OR. The kernel turns each term into a vector of required signs over the 784 columns (+1, −1 or 0, built
  by two scatter-added count tables), maps the inputs to ±1, and tests per term whether the signed dot product equals
  the number of constrained columns — which holds exactly when every constrained column has the required sign — masking
  terms that are padding or that ask a column both ways (such a term can never hold), and takes the maximum over terms.

  The precondition says every input word is 0 or 1 and every literal number lies in 0..1568; under it both runs end
  with the same array of bits, `Cert.Spec.G` of the two argument arrays. The three frames are the generated ones (the
  reference's is its generated run with the result dropped), and the idealization rewrote nothing.
-/
import proofs.«415289_j48060684042318_1_alg».proof.Defs
import proofs.«415289_j48060684042318_1_alg».proof.Proof.Gen.Kernel
import proofs.«415289_j48060684042318_1_alg».proof.Proof.Gen.Kernel.Skeleton
import proofs.«415289_j48060684042318_1_alg».proof.Proof.Gen.Kernel.Launch
import proofs.«415289_j48060684042318_1_alg».proof.Proof.Gen.Kernel.Points
import proofs.«415289_j48060684042318_1_alg».proof.Proof.Gen.Kernel.Frame
import proofs.«415289_j48060684042318_1_alg».proof.Proof.Gen.KernelIdeal
import proofs.«415289_j48060684042318_1_alg».proof.Proof.Gen.KernelIdeal.Skeleton
import proofs.«415289_j48060684042318_1_alg».proof.Proof.Gen.KernelIdeal.Launch
import proofs.«415289_j48060684042318_1_alg».proof.Proof.Gen.KernelIdeal.Points
import proofs.«415289_j48060684042318_1_alg».proof.Proof.Gen.KernelIdeal.Frame
import proofs.«415289_j48060684042318_1_alg».proof.Proof.Gen.ReferenceIdeal
import proofs.«415289_j48060684042318_1_alg».proof.Proof.Gen.Pre_any_inputs
import proofs.«415289_j48060684042318_1_alg».proof.Proof.Gen.ReferenceIdeal.Run
import proofs.«415289_j48060684042318_1_alg».proof.Proof.Gen.ReferenceIdeal.Read
import proofs.«415289_j48060684042318_1_alg».proof.Proof.Spec
import proofs.«415289_j48060684042318_1_alg».proof.Proof.PreDecode
import proofs.«415289_j48060684042318_1_alg».proof.Proof.RefValue
import proofs.«415289_j48060684042318_1_alg».proof.Proof.KHost
import proofs.«415289_j48060684042318_1_alg».proof.Proof.KValue
import proofs.«415289_j48060684042318_1_alg».proof.Proof.KFinal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both runs end at `Spec.G` of the arguments: the kernel's result array is
    "the region's word is not zero" of the four host-made arrays, which is the specified bit; the reference's term is
    the specification read through its gather and its two reductions. -/
theorem algebraic : Cert.algebraic_KernelIdeal_ReferenceIdeal := by
  intro m ρ m' ρ' hpre hagree
  have hdom := fun c : Dev Cert.KernelIdeal.nD => Cert.PreDecode.of_pre (F := Ideal) _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run (Cert.KernelIdeal.defs (F := Ideal)) _ _).mono (fun _ h c => ⟨(h c).1.trans ?_, (h c).2⟩)
      (Cert.KernelIdeal.KValue.run (F := Ideal) m ρ)
    rw [Cert.KernelIdeal.KHost.V_main_v81, Cert.KernelIdeal.KHost.V_main_v74, Cert.KernelIdeal.KHost.V_main_v77,
      Cert.KernelIdeal.KHost.V_main_v80]
    exact Cert.KernelIdeal.KFinal.result_eq _ _ (hdom c).1 (hdom c).2
  · refine (θ_run (Cert.ReferenceIdeal.defs (F := Ideal)) _ _).mono (fun _ h c => ⟨?_, (h c).2⟩)
      (Cert.ReferenceIdeal.Value.run (F := Ideal) m' ρ')
    rw [(h c).1, Cert.ReferenceIdeal.Read.val_main_v23_eq, (hagree c).1, (hagree c).2]
    exact Cert.RefValue.ref_eq _ _ (hdom c).2

theorem claim : Cert.Claim :=
  ⟨Cert.Kernel.Gen.facts, Cert.KernelIdeal.Gen.facts, Cert.ReferenceIdeal.Gen.facts, Cert.Pre_any_inputs.Gen.facts,
    frame_k, frame_ki, frame_ri, preserves, algebraic⟩

end Cert.Proof

end
